-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4 : Shape := ⟨1, ![4]⟩
abbrev S1001x128 : Shape := ⟨2, ![1001, 128]⟩
abbrev S128 : Shape := ⟨1, ![128]⟩
abbrev S2x128 : Shape := ⟨2, ![2, 128]⟩
abbrev S384x128 : Shape := ⟨2, ![384, 128]⟩
abbrev S128x128 : Shape := ⟨2, ![128, 128]⟩
abbrev S256x2 : Shape := ⟨2, ![256, 2]⟩
abbrev S2 : Shape := ⟨1, ![2]⟩
abbrev S_ : Shape := ⟨0, ![]⟩

class Facts : Prop where
  bcast_S_S1001x128 : S_.BroadcastsInDim S1001x128 (![] : Fin 0 → Fin S1001x128.rank)
  reducesTo_S1001x128_S_d0_1 : S1001x128.ReducesTo [0, 1] S_
  h_S_ : 0 < S_.numel
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S384x128 : S_.BroadcastsInDim S384x128 (![] : Fin 0 → Fin S384x128.rank)
  reducesTo_S384x128_S_d0_1 : S384x128.ReducesTo [0, 1] S_
  bcast_S_S128x128 : S_.BroadcastsInDim S128x128 (![] : Fin 0 → Fin S128x128.rank)
  reducesTo_S128x128_S_d0_1 : S128x128.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S256x2 .f32) (main_arg10 : FVec F S2 .f32) (main_v33 : IVec S_ 1) : IVec S_ 1 :=
  let main_v34 : FVec F S256x2 .f32 := Host.absf main_arg9
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S256x2 .f32) (main_arg10 : FVec F S2 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : IVec S4x512x512 32) (main_arg1 : IVec S4 32) (main_arg2 : FVec F S1001x128 .f32) (main_arg3 : FVec F S128 .f32) (main_arg4 : FVec F S2x128 .f32) (main_arg5 : FVec F S384x128 .f32) (main_arg6 : FVec F S128 .f32) (main_arg7 : FVec F S128x128 .f32) (main_arg8 : FVec F S128 .f32) (main_arg9 : FVec F S256x2 .f32) (main_arg10 : FVec F S2 .f32) : IVec S_ 1 :=
  let main_v0 : FVec F S1001x128 .f32 := Host.absf main_arg2
  let main_cst : FVec F S_ .f32 := constant S_ .f32 0x7F800000#32
  let main_v1 : FVec F S1001x128 .f32 := broadcastInDim S1001x128 ![] bcast_S_S1001x128 main_cst
  let main_v2 : IVec S1001x128 1 := cmpf .olt main_v0 main_v1
  let main_c : IVec S_ 1 := constantI S_ 1 1#1
  let main_v3 : IVec S_ 1 := (fun x v => Host.reduce IntOp.andi x v reducesTo_S1001x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_v13 main_v16
-- ==== Kernel.lean ====
abbrev S4x512x512 : Shape := ⟨3, ![4, 512, 512]⟩
abbrev S4 : Shape := ⟨1, ![4]⟩
abbrev S1001x128 : Shape := ⟨2, ![1001, 128]⟩
abbrev S128 : Shape := ⟨1, ![128]⟩
abbrev S2x128 : Shape := ⟨2, ![2, 128]⟩
abbrev S384x128 : Shape := ⟨2, ![384, 128]⟩
abbrev S128x128 : Shape := ⟨2, ![128, 128]⟩
abbrev S256x2 : Shape := ⟨2, ![256, 2]⟩
abbrev S2 : Shape := ⟨1, ![2]⟩
abbrev S_ : Shape := ⟨0, ![]⟩
abbrev S4x1 : Shape := ⟨2, ![4, 1]⟩
abbrev S4x128 : Shape := ⟨2, ![4, 128]⟩
abbrev S4x1x128 : Shape := ⟨3, ![4, 1, 128]⟩
abbrev S4x512x1024 : Shape := ⟨3, ![4, 512, 1024]⟩
abbrev S1x512x512 : Shape := ⟨3, ![1, 512, 512]⟩
abbrev S1x1x128 : Shape := ⟨3, ![1, 1, 128]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩
abbrev S1x128 : Shape := ⟨2, ![1, 128]⟩
abbrev S512x128 : Shape := ⟨2, ![512, 128]⟩
abbrev S128x2 : Shape := ⟨2, ![128, 2]⟩
abbrev S512x2 : Shape := ⟨2, ![512, 2]⟩
abbrev S1x2 : Shape := ⟨2, ![1, 2]⟩
abbrev S2x512 : Shape := ⟨2, ![2, 512]⟩
abbrev S512x1024 : Shape := ⟨2, ![512, 1024]⟩
abbrev S1x512 : Shape := ⟨2, ![1, 512]⟩
abbrev S1x1024 : Shape := ⟨2, ![1, 1024]⟩
abbrev S4x512x2x512 : Shape := ⟨4, ![4, 512, 2, 512]⟩
abbrev S4x512x512x2 : Shape := ⟨4, ![4, 512, 512, 2]⟩

abbrev nBuf : Space → Nat
  | .hbm => 24
  | .vmem => 14
  | .smem => 0
  | _ => 0

abbrev bufTy : (tb : Table) → Fin (tcTables nBuf tb) → BufTy
  | .hbm, ⟨0, _⟩ => ⟨S4x512x512, .i32⟩
  | .hbm, ⟨1, _⟩ => ⟨S4, .i32⟩
  | .hbm, ⟨2, _⟩ => ⟨S1001x128, .f32⟩
  | .hbm, ⟨3, _⟩ => ⟨S128, .f32⟩
  | .hbm, ⟨4, _⟩ => ⟨S2x128, .f32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x2, .f32⟩
  | .hbm, ⟨10, _⟩ => ⟨S2, .f32⟩
  | .hbm, ⟨11, _⟩ => ⟨S_, .i32⟩
  | .hbm, ⟨12, _⟩ => ⟨S4, .i32⟩
  | .hbm, ⟨13, _⟩ => ⟨S4, .i1⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S4, .i32⟩
  | .hbm, ⟨18, _⟩ => ⟨S4x1, .i32⟩
  | .hbm, ⟨19, _⟩ => ⟨S4x128, .f32⟩
  | .hbm, ⟨20, _⟩ => ⟨S4x1x128, .f32⟩
  | .hbm, ⟨21, _⟩ => ⟨S4x512x1024, .f32⟩
  | .hbm, ⟨22, _⟩ => ⟨S4x512x2x512, .f32⟩
  | .hbm, ⟨23, _⟩ => ⟨S4x512x512x2, .f32⟩
  | .local _ .vmem, ⟨0, _⟩ => ⟨S1x512x512, .i32⟩
  | .local _ .vmem, ⟨1, _⟩ => ⟨S1x512x512, .i32⟩
  | .local _ .vmem, ⟨2, _⟩ => ⟨S1x1x128, .f32⟩
  | .local _ .vmem, ⟨3, _⟩ => ⟨S1x1x128, .f32⟩
  | .local _ .vmem, ⟨4, _⟩ => ⟨S128, .f32⟩
  | .local _ .vmem, ⟨5, _⟩ => ⟨S2x128, .f32⟩
  | .local _ .vmem, ⟨6, _⟩ => ⟨S384x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S256x2, .f32⟩
  | .local _ .vmem, ⟨11, _⟩ => ⟨S2, .f32⟩
  | .local _ .vmem, ⟨12, _⟩ => ⟨S1x512x1024, .f32⟩
  | .local _ .vmem, ⟨13, _⟩ => ⟨S1x512x1024, .f32⟩
  | _, _ => ⟨S4x512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S4x128_S4x1x128_0_2 : S4x128.BroadcastsInDim S4x1x128 (![0, 2] : Fin 2 → Fin S4x1x128.rank)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  inb_S2x128_S1x128_0_0 : ∀ a, (![0, 0] : Fin 2 → Nat) a + S1x128.size a ≤ S2x128.size a
  h_S1x128 : 0 < S1x128.numel
  shapeCasts_S1x128_S128 : S1x128.ShapeCasts S128
  inb_S2x128_S1x128_1_0 : ∀ a, (![1, 0] : Fin 2 → Nat) a + S1x128.size a ≤ S2x128.size a
  shapeCasts_S128_S1x128 : S128.ShapeCasts S1x128
  broadcasts_S512x1_S512x128 : S512x1.Broadcasts S512x128
  broadcasts_S1x128_S512x128 : S1x128.Broadcasts S512x128
  inb_S384x128_S384x128_0_0 : ∀ a, (![0, 0] : Fin 2 → Nat) a + S384x128.size a ≤ S384x128.size a
  h_S384x128 : 0 < S384x128.numel
  slices_S384x128_o0_0_S128x128 : S384x128.Slices ![0, 0] S128x128
  slices_S384x128_o128_0_S128x128 : S384x128.Slices ![128, 0] S128x128
  slices_S384x128_o256_0_S128x128 : S384x128.Slices ![256, 0] S128x128
  inb_S128_S128_0 : ∀ a, (![0] : Fin 1 → Nat) a + S128.size a ≤ S128.size a
  h_S128 : 0 < S128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S128x128_S128x128_0_0 : ∀ a, (![0, 0] : Fin 2 → Nat) a + S128x128.size a ≤ S128x128.size a
  h_S128x128 : 0 < S128x128.numel
  inb_S256x2_S256x2_0_0 : ∀ a, (![0, 0] : Fin 2 → Nat) a + S256x2.size a ≤ S256x2.size a
  h_S256x2 : 0 < S256x2.numel
  slices_S256x2_o0_0_S128x2 : S256x2.Slices ![0, 0] S128x2
  slices_S256x2_o128_0_S128x2 : S256x2.Slices ![128, 0] S128x2
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  slices_S512x2_o0_0_S512x1 : S512x2.Slices ![0, 0] S512x1
  slices_S512x2_o0_1_S512x1 : S512x2.Slices ![0, 1] S512x1
  shapeCasts_S512x1_S512x1 : S512x1.ShapeCasts S512x1
  broadcasts_S512x1_S512x512 : S512x1.Broadcasts S512x512
  concatenates_S512x512_S512x512_S512x1024_d1 : Shape.Concatenates [S512x512, S512x512] S512x1024 1
  slices_S2x512_o0_0_S1x512 : S2x512.Slices ![0, 0] S1x512
  slices_S2x512_o1_0_S1x512 : S2x512.Slices ![1, 0] S1x512
  concatenates_S1x512_S1x512_S1x1024_d1 : Shape.Concatenates [S1x512, S1x512] S1x1024 1
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S4x512x1024_S4x512x2x512 : S4x512x1024.ShapeCasts S4x512x2x512
  transposes_S4x512x2x512_S4x512x512x2_0_1_3_2 : S4x512x2x512.Transposes [0, 1, 3, 2] S4x512x512x2
  gather_S1001x128_S4x1_S4x128_1_0_n_n_0_1_1128_wf : GatherDims.WF S1001x128 S4x1 S4x128 [1] [0] [] [0] [] 1 ![1, 128]
  dot_S1x128_S128x128_S1x128_1_0_0_1_n_n_wf : DotDims.WF S1x128 S128x128 S1x128 [1] [0] [0] [1] [] []
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []
  dot_S128x2_S512x128_S2x512_0_1_1_0_n_n_wf : DotDims.WF S128x2 S512x128 S2x512 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x512x512.size a
  hwx0_0 : ∀ i : grid0.Coords, EltTy.bits .i32 = 32 ∨ (Rect.block (s := S4x512x512) S1x512x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S4x1x128.size a
  hwx0_1 : ∀ i : grid0.Coords, EltTy.bits .f32 = 32 ∨ (Rect.block (s := S4x1x128) S1x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x128.size a ≤ S384x128.size a
  hwx0_4 : ∀ i : grid0.Coords, EltTy.bits .f32 = 32 ∨ (Rect.block (s := S384x128) S384x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x2.size a ≤ S256x2.size a
  hwx0_8 : ∀ i : grid0.Coords, EltTy.bits .f32 = 32 ∨ (Rect.block (s := S256x2) S256x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2.size a ≤ S2.size a
  hwx0_9 : ∀ i : grid0.Coords, EltTy.bits .f32 = 32 ∨ (Rect.block (s := S2) S2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1024.size a ≤ S4x512x1024.size a
  hwx0_10 : ∀ i : grid0.Coords, EltTy.bits .f32 = 32 ∨ (Rect.block (s := S4x512x1024) S1x512x1024.size (cc0_transform_10 i) (hinb0_10 i)).WholeWords (EltTy.packing .f32)

variable [Facts₀]

def gather_S1001x128_S4x1_S4x128_1_0_n_n_0_1_1128 : GatherDims S1001x128 S4x1 S4x128 where
  offsetDims := [1]
  collapsedSliceDims := [0]
  operandBatchingDims := []
  startIndicesBatchingDims := []
  startIndexMap := [0]
  indexVectorDim := 1
  sliceSizes := ![1, 128]
  wf := gather_S1001x128_S4x1_S4x128_1_0_n_n_0_1_1128_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf
def dot_S128x2_S512x128_S2x512_0_1_1_0_n_n : DotDims S128x2 S512x128 S2x512 where
  lhsContracting := [0]
  rhsContracting := [1]
  lhsNonContracting := [1]
  rhsNonContracting := [0]
  lhsBatch := []
  rhsBatch := []
  wf := dot_S128x2_S512x128_S2x512_0_1_1_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S384x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S4 : Shape := ⟨1, ![4]⟩
abbrev S1001x128 : Shape := ⟨2, ![1001, 128]⟩
abbrev S128 : Shape := ⟨1, ![128]⟩
abbrev S2x128 : Shape := ⟨2, ![2, 128]⟩
abbrev S384x128 : Shape := ⟨2, ![384, 128]⟩
abbrev S128x128 : Shape := ⟨2, ![128, 128]⟩
abbrev S256x2 : Shape := ⟨2, ![256, 2]⟩
abbrev S2 : Shape := ⟨1, ![2]⟩
abbrev S_ : Shape := ⟨0, ![]⟩
abbrev S4x1 : Shape := ⟨2, ![4, 1]⟩
abbrev S4x128 : Shape := ⟨2, ![4, 128]⟩
abbrev S4x1x128 : Shape := ⟨3, ![4, 1, 128]⟩
abbrev S4x512x128 : Shape := ⟨3, ![4, 512, 128]⟩
abbrev S4x512 : Shape := ⟨2, ![4, 512]⟩
abbrev S4x512x1 : Shape := ⟨3, ![4, 512, 1]⟩
abbrev S1x128 : Shape := ⟨2, ![1, 128]⟩
abbrev S1x1x128 : Shape := ⟨3, ![1, 1, 128]⟩
abbrev S4x512x384 : Shape := ⟨3, ![4, 512, 384]⟩
abbrev S128x2 : Shape := ⟨2, ![128, 2]⟩
abbrev S4x512x2 : Shape := ⟨3, ![4, 512, 2]⟩
abbrev S4x512x1x2 : Shape := ⟨4, ![4, 512, 1, 2]⟩
abbrev S4x1x512x2 : Shape := ⟨4, ![4, 1, 512, 2]⟩
abbrev S4x512x512x2 : Shape := ⟨4, ![4, 512, 512, 2]⟩
abbrev S1x1x1x2 : Shape := ⟨4, ![1, 1, 1, 2]⟩

abbrev nBuf : Space → Nat
  | .hbm => 75
  | .vmem => 0
  | .smem => 0
  | _ => 0

abbrev bufTy : (tb : Table) → Fin (tcTables nBuf tb) → BufTy
  | .hbm, ⟨0, _⟩ => ⟨S4x512x512, .i32⟩
  | .hbm, ⟨1, _⟩ => ⟨S4, .i32⟩
  | .hbm, ⟨2, _⟩ => ⟨S1001x128, .f32⟩
  | .hbm, ⟨3, _⟩ => ⟨S128, .f32⟩
  | .hbm, ⟨4, _⟩ => ⟨S2x128, .f32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x2, .f32⟩
  | .hbm, ⟨10, _⟩ => ⟨S2, .f32⟩
  | .hbm, ⟨11, _⟩ => ⟨S_, .i32⟩
  | .hbm, ⟨12, _⟩ => ⟨S4, .i32⟩
  | .hbm, ⟨13, _⟩ => ⟨S4, .i1⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S4, .i32⟩
  | .hbm, ⟨18, _⟩ => ⟨S4x1, .i32⟩
  | .hbm, ⟨19, _⟩ => ⟨S4x128, .f32⟩
  | .hbm, ⟨20, _⟩ => ⟨S4x1x128, .f32⟩
  | .hbm, ⟨21, _⟩ => ⟨S4x512x128, .f32⟩
  | .hbm, ⟨22, _⟩ => ⟨S4x512x512, .f32⟩
  | .hbm, ⟨23, _⟩ => ⟨S_, .f32⟩
  | .hbm, ⟨24, _⟩ => ⟨S4x512, .f32⟩
  | .hbm, ⟨25, _⟩ => ⟨S_, .f32⟩
  | .hbm, ⟨26, _⟩ => ⟨S4x512, .f32⟩
  | .hbm, ⟨27, _⟩ => ⟨S4x512, .f32⟩
  | .hbm, ⟨28, _⟩ => ⟨S_, .f32⟩
  | .hbm, ⟨29, _⟩ => ⟨S4x512, .f32⟩
  | .hbm, ⟨30, _⟩ => ⟨S4x512, .f32⟩
  | .hbm, ⟨31, _⟩ => ⟨S4x512x1, .f32⟩
  | .hbm, ⟨32, _⟩ => ⟨S1x128, .f32⟩
  | .hbm, ⟨33, _⟩ => ⟨S128, .f32⟩
  | .hbm, ⟨34, _⟩ => ⟨S1x1x128, .f32⟩
  | .hbm, ⟨35, _⟩ => ⟨S4x512x128, .f32⟩
  | .hbm, ⟨36, _⟩ => ⟨S4x512x128, .f32⟩
  | .hbm, ⟨37, _⟩ => ⟨S4x512x128, .f32⟩
  | .hbm, ⟨38, _⟩ => ⟨S4x512x1, .f32⟩
  | .hbm, ⟨39, _⟩ => ⟨S1x128, .f32⟩
  | .hbm, ⟨40, _⟩ => ⟨S128, .f32⟩
  | .hbm, ⟨41, _⟩ => ⟨S1x1x128, .f32⟩
  | .hbm, ⟨42, _⟩ => ⟨S4x512x128, .f32⟩
  | .hbm, ⟨43, _⟩ => ⟨S4x512x128, .f32⟩
  | .hbm, ⟨44, _⟩ => ⟨S4x512x128, .f32⟩
  | .hbm, ⟨45, _⟩ => ⟨S4x512x128, .f32⟩
  | .hbm, ⟨46, _⟩ => ⟨S1x1x128, .f32⟩
  | .hbm, ⟨47, _⟩ => ⟨S4x512x128, .f32⟩
  | .hbm, ⟨48, _⟩ => ⟨S4x512x384, .f32⟩
  | .hbm, ⟨49, _⟩ => ⟨S4x512x128, .f32⟩
  | .hbm, ⟨50, _⟩ => ⟨S1x1x128, .f32⟩
  | .hbm, ⟨51, _⟩ => ⟨S4x512x128, .f32⟩
  | .hbm, ⟨52, _⟩ => ⟨S4x512x128, .f32⟩
  | .hbm, ⟨53, _⟩ => ⟨S_, .f32⟩
  | .hbm, ⟨54, _⟩ => ⟨S4x512x128, .f32⟩
  | .hbm, ⟨55, _⟩ => ⟨S4x512x128, .f32⟩
  | .hbm, ⟨56, _⟩ => ⟨S4x512x128, .f32⟩
  | .hbm, ⟨57, _⟩ => ⟨S1x1x128, .f32⟩
  | .hbm, ⟨58, _⟩ => ⟨S4x512x128, .f32⟩
  | .hbm, ⟨59, _⟩ => ⟨S4x512x128, .f32⟩
  | .hbm, ⟨60, _⟩ => ⟨S_, .f32⟩
  | .hbm, ⟨61, _⟩ => ⟨S4x512x128, .f32⟩
  | .hbm, ⟨62, _⟩ => ⟨S4x512x128, .f32⟩
  | .hbm, ⟨63, _⟩ => ⟨S128x2, .f32⟩
  | .hbm, ⟨64, _⟩ => ⟨S4x512x2, .f32⟩
  | .hbm, ⟨65, _⟩ => ⟨S128x2, .f32⟩
  | .hbm, ⟨66, _⟩ => ⟨S4x512x2, .f32⟩
  | .hbm, ⟨67, _⟩ => ⟨S4x512x1x2, .f32⟩
  | .hbm, ⟨68, _⟩ => ⟨S4x1x512x2, .f32⟩
  | .hbm, ⟨69, _⟩ => ⟨S4x512x512x2, .f32⟩
  | .hbm, ⟨70, _⟩ => ⟨S4x512x512x2, .f32⟩
  | .hbm, ⟨71, _⟩ => ⟨S4x512x512x2, .f32⟩
  | .hbm, ⟨72, _⟩ => ⟨S1x1x1x2, .f32⟩
  | .hbm, ⟨73, _⟩ => ⟨S4x512x512x2, .f32⟩
  | .hbm, ⟨74, _⟩ => ⟨S4x512x512x2, .f32⟩
  | _, _ => ⟨S4x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call1_cst : Ref sig .tc := ⟨.hbm, 60, rfl⟩
abbrev main_call1_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S4x128_S4x1x128_0_2 : S4x128.BroadcastsInDim S4x1x128 (![0, 2] : Fin 2 → Fin S4x1x128.rank)
  bcast_S4x1x128_S4x512x128_0_1_2 : S4x1x128.BroadcastsInDim S4x512x128 (![0, 1, 2] : Fin 3 → Fin S4x512x128.rank)
  reducesTo_S4x512x512_S4x512_d2 : S4x512x512.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  slices_S2x128_S1x128_0_0 : S2x128.Slices ![0, 0] S1x128
  shapeCasts_S1x128_S128 : S1x128.ShapeCasts S128
  bcast_S128_S1x1x128_2 : S128.BroadcastsInDim S1x1x128 (![2] : Fin 1 → Fin S1x1x128.rank)
  bcast_S4x512x1_S4x512x128_0_1_2 : S4x512x1.BroadcastsInDim S4x512x128 (![0, 1, 2] : Fin 3 → Fin S4x512x128.rank)
  bcast_S1x1x128_S4x512x128_0_1_2 : S1x1x128.BroadcastsInDim S4x512x128 (![0, 1, 2] : Fin 3 → Fin S4x512x128.rank)
  slices_S2x128_S1x128_1_0 : S2x128.Slices ![1, 0] S1x128
  concatenates_S4x512x128_S4x512x128_S4x512x128_S4x512x384_d2 : Shape.Concatenates [S4x512x128, S4x512x128, S4x512x128] S4x512x384 2
  bcast_S_S4x512x128 : S_.BroadcastsInDim S4x512x128 (![] : Fin 0 → Fin S4x512x128.rank)
  slices_S256x2_S128x2_0_0 : S256x2.Slices ![0, 0] S128x2
  slices_S256x2_S128x2_128_0 : S256x2.Slices ![128, 0] S128x2
  bcast_S4x512x2_S4x512x1x2_0_1_3 : S4x512x2.BroadcastsInDim S4x512x1x2 (![0, 1, 3] : Fin 3 → Fin S4x512x1x2.rank)
  bcast_S4x512x2_S4x1x512x2_0_2_3 : S4x512x2.BroadcastsInDim S4x1x512x2 (![0, 2, 3] : Fin 3 → Fin S4x1x512x2.rank)
  bcast_S4x512x1x2_S4x512x512x2_0_1_2_3 : S4x512x1x2.BroadcastsInDim S4x512x512x2 (![0, 1, 2, 3] : Fin 4 → Fin S4x512x512x2.rank)
  bcast_S4x1x512x2_S4x512x512x2_0_1_2_3 : S4x1x512x2.BroadcastsInDim S4x512x512x2 (![0, 1, 2, 3] : Fin 4 → Fin S4x512x512x2.rank)
  bcast_S2_S1x1x1x2_3 : S2.BroadcastsInDim S1x1x1x2 (![3] : Fin 1 → Fin S1x1x1x2.rank)
  bcast_S1x1x1x2_S4x512x512x2_0_1_2_3 : S1x1x1x2.BroadcastsInDim S4x512x512x2 (![0, 1, 2, 3] : Fin 4 → Fin S4x512x512x2.rank)
  gather_S1001x128_S4x1_S4x128_1_0_n_n_0_1_1128_wf : GatherDims.WF S1001x128 S4x1 S4x128 [1] [0] [] [0] [] 1 ![1, 128]
  dot_S4x512x384_S384x128_S4x512x128_2_0_01_1_n_n_wf : DotDims.WF S4x512x384 S384x128 S4x512x128 [2] [0] [0, 1] [1] [] []
  dot_S4x512x128_S128x128_S4x512x128_2_0_01_1_n_n_wf : DotDims.WF S4x512x128 S128x128 S4x512x128 [2] [0] [0, 1] [1] [] []
  dot_S4x512x128_S128x2_S4x512x2_2_0_01_1_n_n_wf : DotDims.WF S4x512x128 S128x2 S4x512x2 [2] [0] [0, 1] [1] [] []

variable [Facts₀]

def gather_S1001x128_S4x1_S4x128_1_0_n_n_0_1_1128 : GatherDims S1001x128 S4x1 S4x128 where
  offsetDims := [1]
  collapsedSliceDims := [0]
  operandBatchingDims := []
  startIndicesBatchingDims := []
  startIndexMap := [0]
  indexVectorDim := 1
  sliceSizes := ![1, 128]
  wf := gather_S1001x128_S4x1_S4x128_1_0_n_n_0_1_1128_wf
def dot_S4x512x384_S384x128_S4x512x128_2_0_01_1_n_n : DotDims S4x512x384 S384x128 S4x512x128 where
  lhsContracting := [2]
  rhsContracting := [0]
  lhsNonContracting := [0, 1]
  rhsNonContracting := [1]
  lhsBatch := []
  rhsBatch := []
  wf := dot_S4x512x384_S384x128_S4x512x128_2_0_01_1_n_n_wf
def dot_S4x512x128_S128x128_S4x512x128_2_0_01_1_n_n : DotDims S4x512x128 S128x128 S4x512x128 where
  lhsContracting := [2]
  rhsContracting := [0]
  lhsNonContracting := [0, 1]
  rhsNonContracting := [1]
  lhsBatch := []
  rhsBatch := []
  wf := dot_S4x512x128_S128x128_S4x512x128_2_0_01_1_n_n_wf
def dot_S4x512x128_S128x2_S4x512x2_2_0_01_1_n_n : DotDims S4x512x128 S128x2 S4x512x2 where
  lhsContracting := [2]
  rhsContracting := [0]
  lhsNonContracting := [0, 1]
  rhsNonContracting := [1]
  lhsBatch := []
  rhsBatch := []
  wf := dot_S4x512x128_S128x2_S4x512x2_2_0_01_1_n_n_wf

class Facts : Prop extends Facts₀ where

variable [Facts]
-- ==== Proof.KOps.lean ====
/-
  The matrix products and the lane concatenations of the kernel body, read at an entry on the extended reals.

  Each product has one contracted axis and starts from a zero accumulator, so an entry is the plain sum, over the
  contracted coordinate, of the products of the two operands' entries.  Three of the four products contract the
  left operand's columns with the right operand's rows; the fourth contracts the left operand's ROWS with the right
  operand's COLUMNS, so that the entry at `(p, c)` pairs column `p` of the left with row `c` of the right.
  A concatenation of two equal pieces along the lane axis reads the first piece below the piece's width and the
  second piece above it.
-/
import proofs.«419469_j44573170598305_4_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ### A row `[1, 128]` times a `[128, 128]` matrix -/

theorem lhsR_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem lhsR_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem rhsR_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhsR_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

theorem matmulR_apply (l : FVec Ideal S1x128 .f32) (r : FVec Ideal S128x128 .f32) (p : Fin 1) (c : Fin 128) :
    matmul dot_S1x128_S128x128_S1x128_1_0_0_1_n_n none l r (constant (F := Ideal) S1x128 .f32 0x00000000#32) (ix2 p c)
      = ∑ k : Fin 128, l (ix2 p k) * r (ix2 k c) := by
  refine (Ideal.matmul_constant_zero_apply dot_S1x128_S128x128_S1x128_1_0_0_1_n_n none l r (ix2 p c)).trans ?_
  rw [← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 p c) ((contrEquiv1 dot_S1x128_S128x128_S1x128_1_0_0_1_n_n 128 rfl rfl).symm k) = ix2 p k := funext fun a => Fin.ext (by
    match a with
    | ⟨0, _⟩ => exact lhsR_0 _ _
    | ⟨1, _⟩ => exact (lhsR_1 _ _).trans hk)
  have er : dot_S1x128_S128x128_S1x128_1_0_0_1_n_n.rhsIdx (ix2 p c) ((contrEquiv1 dot_S1x128_S128x128_S1x128_1_0_0_1_n_n 128 rfl rfl).symm k) = ix2 k c := funext fun a => Fin.ext (by
    match a with
    | ⟨0, _⟩ => exact (rhsR_0 _ _).trans hk
    | ⟨1, _⟩ => exact rhsR_1 _ _)
  rw [el, er]

/-! ### `[512, 128]` times `[128, 128]` -/

theorem lhsH_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhsH_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhsH_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhsH_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem matmulH_apply (l : FVec Ideal S512x128 .f32) (r : FVec Ideal S128x128 .f32) (p : Fin 512) (c : Fin 128) :
    matmul dot_S512x128_S128x128_S512x128_1_0_0_1_n_n none l r (constant (F := Ideal) S512x128 .f32 0x00000000#32) (ix2 p c)
      = ∑ k : Fin 128, l (ix2 p k) * r (ix2 k c) := by
  refine (Ideal.matmul_constant_zero_apply dot_S512x128_S128x128_S512x128_1_0_0_1_n_n none l r (ix2 p c)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p c) ((contrEquiv1 dot_S512x128_S128x128_S512x128_1_0_0_1_n_n 128 rfl rfl).symm k) = ix2 p k := funext fun a => Fin.ext (by
    match a with
    | ⟨0, _⟩ => exact lhsH_0 _ _
    | ⟨1, _⟩ => exact (lhsH_1 _ _).trans hk)
  have er : dot_S512x128_S128x128_S512x128_1_0_0_1_n_n.rhsIdx (ix2 p c) ((contrEquiv1 dot_S512x128_S128x128_S512x128_1_0_0_1_n_n 128 rfl rfl).symm k) = ix2 k c := funext fun a => Fin.ext (by
    match a with
    | ⟨0, _⟩ => exact (rhsH_0 _ _).trans hk
    | ⟨1, _⟩ => exact rhsH_1 _ _)
  rw [el, er]

/-! ### `[512, 128]` times `[128, 2]` -/

theorem lhsC_0 (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem lhsC_1 (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q
theorem rhsC_0 (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q
theorem rhsC_1 (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

theorem matmulC_apply (l : FVec Ideal S512x128 .f32) (r : FVec Ideal S128x2 .f32) (p : Fin 512) (c : Fin 2) :
    matmul dot_S512x128_S128x2_S512x2_1_0_0_1_n_n none l r (constant (F := Ideal) S512x2 .f32 0x00000000#32) (ix2 p c)
      = ∑ k : Fin 128, l (ix2 p k) * r (ix2 k c) := by
  refine (Ideal.matmul_constant_zero_apply dot_S512x128_S128x2_S512x2_1_0_0_1_n_n none l r (ix2 p c)).trans ?_
  rw [← Equiv.sum_comp (contrEquiv1 dot_S512x128_S128x2_S512x2_1_0_0_1_n_n 128 rfl rfl).symm]
  refine Finset.sum_congr rfl fun k _ => ?_
  have hk := contrEquiv1_symm_val dot_S512x128_S128x2_S512x2_1_0_0_1_n_n 128 rfl rfl k
  have el : dot_S512x128_S128x2_S512x2_1_0_0_1_n_n.lhsIdx (ix2 p c) ((contrEquiv1 dot_S512x128_S128x2_S512x2_1_0_0_1_n_n 128 rfl rfl).symm k) = ix2 p k := funext fun a => Fin.ext (by
    match a with
    | ⟨0, _⟩ => exact lhsC_0 _ _
    | ⟨1, _⟩ => exact (lhsC_1 _ _).trans hk)
  have er : dot_S512x128_S128x2_S512x2_1_0_0_1_n_n.rhsIdx (ix2 p c) ((contrEquiv1 dot_S512x128_S128x2_S512x2_1_0_0_1_n_n 128 rfl rfl).symm k) = ix2 k c := funext fun a => Fin.ext (by
    match a with
    | ⟨0, _⟩ => exact (rhsC_0 _ _).trans hk
    | ⟨1, _⟩ => exact rhsC_1 _ _)
  rw [el, er]

/-! ### `[128, 2]` and `[512, 128]` contracted over the 128 -/

theorem lhsT_0 (i : S2x512.Idx) (q : dot_S128x2_S512x128_S2x512_0_1_1_0_n_n.contr.Idx) :
    (dot_S128x2_S512x128_S2x512_0_1_1_0_n_n.lhsIdx i q 0).val = (q ⟨0, by decide⟩).val :=
  dot_S128x2_S512x128_S2x512_0_1_1_0_n_n.lhsIdx_val_of_single rfl i q
theorem lhsT_1 (i : S2x512.Idx) (q : dot_S128x2_S512x128_S2x512_0_1_1_0_n_n.contr.Idx) :
    (dot_S128x2_S512x128_S2x512_0_1_1_0_n_n.lhsIdx i q 1).val = (i 0).val := by
  unfold DotDims.lhsIdx
  rw [dif_neg (show ¬(1 : Fin S128x2.rank) ∈ dot_S128x2_S512x128_S2x512_0_1_1_0_n_n.lhsBatch by decide), dif_pos (show (1 : Fin S128x2.rank) ∈ dot_S128x2_S512x128_S2x512_0_1_1_0_n_n.lhsNonContracting by decide)]
  rfl
theorem rhsT_0 (i : S2x512.Idx) (q : dot_S128x2_S512x128_S2x512_0_1_1_0_n_n.contr.Idx) :
    (dot_S128x2_S512x128_S2x512_0_1_1_0_n_n.rhsIdx i q 0).val = (i 1).val := by
  unfold DotDims.rhsIdx
  rw [dif_neg (show ¬(0 : Fin S512x128.rank) ∈ dot_S128x2_S512x128_S2x512_0_1_1_0_n_n.rhsBatch by decide), dif_pos (show (0 : Fin S512x128.rank) ∈ dot_S128x2_S512x128_S2x512_0_1_1_0_n_n.rhsNonContracting by decide)]
  rfl
theorem rhsT_1 (i : S2x512.Idx) (q : dot_S128x2_S512x128_S2x512_0_1_1_0_n_n.contr.Idx) :
    (dot_S128x2_S512x128_S2x512_0_1_1_0_n_n.rhsIdx i q 1).val = (q ⟨0, by decide⟩).val :=
  dot_S128x2_S512x128_S2x512_0_1_1_0_n_n.rhsIdx_val_of_single rfl i q

/-- The entry at `(p, c)` pairs column `p` of the left operand with row `c` of the right. -/
theorem matmulT_apply (l : FVec Ideal S128x2 .f32) (r : FVec Ideal S512x128 .f32) (p : Fin 2) (c : Fin 512) :
    matmul dot_S128x2_S512x128_S2x512_0_1_1_0_n_n none l r (constant (F := Ideal) S2x512 .f32 0x00000000#32) (ix2 p c)
      = ∑ k : Fin 128, l (ix2 k p) * r (ix2 c k) := by
  refine (Ideal.matmul_constant_zero_apply dot_S128x2_S512x128_S2x512_0_1_1_0_n_n none l r (ix2 p c)).trans ?_
  rw [← Equiv.sum_comp (contrEquiv1 dot_S128x2_S512x128_S2x512_0_1_1_0_n_n 128 rfl rfl).symm]
  refine Finset.sum_congr rfl fun k _ => ?_
  have hk := contrEquiv1_symm_val dot_S128x2_S512x128_S2x512_0_1_1_0_n_n 128 rfl rfl k
  have el : dot_S128x2_S512x128_S2x512_0_1_1_0_n_n.lhsIdx (ix2 p c) ((contrEquiv1 dot_S128x2_S512x128_S2x512_0_1_1_0_n_n 128 rfl rfl).symm k) = ix2 k p := funext fun a => Fin.ext (by
    match a with
    | ⟨0, _⟩ => exact (lhsT_0 _ _).trans hk
    | ⟨1, _⟩ => exact lhsT_1 _ _)
  have er : dot_S128x2_S512x128_S2x512_0_1_1_0_n_n.rhsIdx (ix2 p c) ((contrEquiv1 dot_S128x2_S512x128_S2x512_0_1_1_0_n_n 128 rfl rfl).symm k) = ix2 c k := funext fun a => Fin.ext (by
    match a with
    | ⟨0, _⟩ => exact rhsT_0 _ _
    | ⟨1, _⟩ => exact (rhsT_1 _ _).trans hk)
  rw [el, er]

/-! ### Two pieces side by side along the lanes -/

/-- Two `[a, n]` pieces joined into `[a, n + n]`: a lane below `n` reads the first piece. -/
theorem concat_lanes_left {a n : ℕ} (x₁ x₂ : (⟨2, ![a, n]⟩ : Shape).Idx → EReal)
    (h : Shape.Concatenates [(⟨2, ![a, n]⟩ : Shape), (⟨2, ![a, n]⟩ : Shape)] (⟨2, ![a, n + n]⟩ : Shape) (1 : Fin 2))
    (p : Fin a) (j : Fin n) (J : Fin (n + n)) (hJ : J.val = j.val) :
    concatenate (⟨2, ![a, n + n]⟩ : Shape) (1 : Fin 2) [⟨(⟨2, ![a, n]⟩ : Shape), x₁⟩, ⟨(⟨2, ![a, n]⟩ : Shape), x₂⟩] h (ix2 p J) = x₁ (ix2 p j) :=
  concatenate_pair_apply_left (1 : Fin 2) x₁ x₂ h (ix2 p J) rfl (ix2 p j) fun b =>
    match b with
    | ⟨0, _⟩ => rfl
    | ⟨1, _⟩ => hJ.symm

/-- … and a lane `n + j` reads the second piece at `j`. -/
theorem concat_lanes_right {a n : ℕ} (x₁ x₂ : (⟨2, ![a, n]⟩ : Shape).Idx → EReal)
    (h : Shape.Concatenates [(⟨2, ![a, n]⟩ : Shape), (⟨2, ![a, n]⟩ : Shape)] (⟨2, ![a, n + n]⟩ : Shape) (1 : Fin 2))
    (p : Fin a) (j : Fin n) (J : Fin (n + n)) (hJ : J.val = n + j.val) :
    concatenate (⟨2, ![a, n + n]⟩ : Shape) (1 : Fin 2) [⟨(⟨2, ![a, n]⟩ : Shape), x₁⟩, ⟨(⟨2, ![a, n]⟩ : Shape), x₂⟩] h (ix2 p J) = x₂ (ix2 p j) :=
  concatenate_pair_apply_right (1 : Fin 2) x₁ x₂ h (ix2 p J) rfl rfl (ix2 p j)
    (fun b hb => match b with
      | ⟨0, _⟩ => rfl
      | ⟨1, _⟩ => absurd rfl hb)
    (by show j.val + n = J.val; omega)

end Cert.KernelIdeal.Hand

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.Spec.lean ====
/-
  The edge logits of the graph denoiser, entry by entry, on the extended reals.

  For batch element `b`, node `i` has the fraction `p` of ones in row `i` of the adjacency matrix, and its
  embedding interpolates the two edge embeddings by `p`.  Two dense layers with a rectifier follow (the first
  also sees the "no condition" row and the time row of the batch element, the same for every node), and the
  logit of the ordered pair `(i, j)` in class `c` is the sum of a term of node `i`, a term of node `j` and a bias.

  The same quantity is written twice.  The FACTORED form interpolates as `e₀ + p · (e₁ - e₀)`, folds the two
  node-independent rows and the first bias into one row added after the node's own product, puts the last bias on
  the `i` term, and takes the `j` term with the weight on the left.  The DIRECT form interpolates as
  `(1 - p) · e₀ + p · e₁`, adds the three products of the first layer in order and the bias after them, and adds
  the last bias to the finished pair sum.  `Cert.Denoise.factored_eq_direct` (Algebra) says they agree when the
  edge embeddings are real numbers.
-/
import Idealize.ShloMosaic.PureOps.Ideal
import Idealize.ShloMosaic.Lib.ValueIdx

noncomputable section

open scoped BigOperators

namespace Cert.Denoise

open Idealize.ShloMosaic Idealize.ShloMosaic.ValueIdx

/-! ## Shapes of the arguments and of the result -/

abbrev SAdj : Shape := ⟨3, ![4, 512, 512]⟩
abbrev STime : Shape := ⟨2, ![4, 128]⟩
abbrev SRow : Shape := ⟨1, ![128]⟩
abbrev SEdge : Shape := ⟨2, ![2, 128]⟩
abbrev SW1 : Shape := ⟨2, ![384, 128]⟩
abbrev SW2 : Shape := ⟨2, ![128, 128]⟩
abbrev SWc : Shape := ⟨2, ![256, 2]⟩
abbrev SBc : Shape := ⟨1, ![2]⟩
abbrev SOut : Shape := ⟨4, ![4, 512, 512, 2]⟩

/-! ## Rows of the stacked weights

The first layer's weight stacks three `128 × 128` blocks (for the node's row, the "no condition" row and the time
row), the classifier's weight two `128 × 2` blocks (for node `i` and for node `j`). -/

/-- Row `k` of the first block of three. -/
abbrev blk0 (k : Fin 128) : Fin 384 := ⟨k.val, by omega⟩
/-- Row `k` of the second block of three. -/
abbrev blk1 (k : Fin 128) : Fin 384 := ⟨128 + k.val, by omega⟩
/-- Row `k` of the third block of three. -/
abbrev blk2 (k : Fin 128) : Fin 384 := ⟨256 + k.val, by omega⟩
/-- Row `k` of the upper half. -/
abbrev half0 (k : Fin 128) : Fin 256 := ⟨k.val, by omega⟩
/-- Row `k` of the lower half. -/
abbrev half1 (k : Fin 128) : Fin 256 := ⟨128 + k.val, by omega⟩

section
variable (adj : SAdj.Idx → BitVec 32) (te : STime.Idx → EReal) (nc : SRow.Idx → EReal) (E : SEdge.Idx → EReal)
  (W1 : SW1.Idx → EReal) (b1 : SRow.Idx → EReal) (W2 : SW2.Idx → EReal) (b2 : SRow.Idx → EReal)
  (Wc : SWc.Idx → EReal) (bc : SBc.Idx → EReal)

/-- The mean of row `i` of batch element `b`'s adjacency matrix (its entries read as signed integers): the sum of
    the row divided by the float `512`. -/
def rowMean (b : Fin 4) (i : Fin 512) : EReal :=
  Ideal.div (∑ j : Fin 512, (((adj (ix3 b i j)).toInt : ℝ) : EReal)) (Ideal.ofBits .f32 0x44000000#32)

/-! ## The factored form -/

/-- Node embedding, `e₀ + p · (e₁ - e₀)`. -/
def nodeF (b : Fin 4) (i : Fin 512) (d : Fin 128) : EReal :=
  E (ix2 (0 : Fin 2) d) + rowMean adj b i * (E (ix2 (1 : Fin 2) d) - E (ix2 (0 : Fin 2) d))

/-- What the "no condition" row, the time row and the bias add to every node's first layer. -/
def restF (b : Fin 4) (d : Fin 128) : EReal :=
  (∑ k : Fin 128, nc (ix1 k) * W1 (ix2 (blk1 k) d) + ∑ k : Fin 128, te (ix2 b k) * W1 (ix2 (blk2 k) d)) + b1 (ix1 d)

/-- First layer. -/
def hidF (b : Fin 4) (i : Fin 512) (d : Fin 128) : EReal :=
  max (∑ k : Fin 128, nodeF adj E b i k * W1 (ix2 (blk0 k) d) + restF te nc W1 b1 b d) 0

/-- Second layer. -/
def fusedF (b : Fin 4) (i : Fin 512) (e : Fin 128) : EReal :=
  max (∑ d : Fin 128, hidF adj te nc E W1 b1 b i d * W2 (ix2 d e) + b2 (ix1 e)) 0

/-- The term of node `i`, with the bias. -/
def leftF (b : Fin 4) (i : Fin 512) (c : Fin 2) : EReal :=
  ∑ d : Fin 128, fusedF adj te nc E W1 b1 W2 b2 b i d * Wc (ix2 (half0 d) c) + bc (ix1 c)

/-- The term of node `j`, the weight on the left. -/
def rightF (b : Fin 4) (j : Fin 512) (c : Fin 2) : EReal :=
  ∑ d : Fin 128, Wc (ix2 (half1 d) c) * fusedF adj te nc E W1 b1 W2 b2 b j d

/-- The logit of `(b, i, j, c)`, factored form. -/
def logitF (b : Fin 4) (i j : Fin 512) (c : Fin 2) : EReal :=
  leftF adj te nc E W1 b1 W2 b2 Wc bc b i c + rightF adj te nc E W1 b1 W2 b2 Wc b j c

/-! ## The direct form -/

/-- Node embedding, `(1 - p) · e₀ + p · e₁`. -/
def nodeD (b : Fin 4) (i : Fin 512) (d : Fin 128) : EReal :=
  (Ideal.ofBits .f32 0x3F800000#32 - rowMean adj b i) * E (ix2 (0 : Fin 2) d) + rowMean adj b i * E (ix2 (1 : Fin 2) d)

/-- First layer: the three products in order, then the bias. -/
def hidD (b : Fin 4) (i : Fin 512) (d : Fin 128) : EReal :=
  max (((∑ k : Fin 128, nodeD adj E b i k * W1 (ix2 (blk0 k) d) + ∑ k : Fin 128, nc (ix1 k) * W1 (ix2 (blk1 k) d))
      + ∑ k : Fin 128, te (ix2 b k) * W1 (ix2 (blk2 k) d)) + b1 (ix1 d)) 0

/-- Second layer. -/
def fusedD (b : Fin 4) (i : Fin 512) (e : Fin 128) : EReal :=
  max (∑ d : Fin 128, hidD adj te nc E W1 b1 b i d * W2 (ix2 d e) + b2 (ix1 e)) 0

/-- The term of node `i`. -/
def leftD (b : Fin 4) (i : Fin 512) (c : Fin 2) : EReal :=
  ∑ d : Fin 128, fusedD adj te nc E W1 b1 W2 b2 b i d * Wc (ix2 (half0 d) c)

/-- The term of node `j`. -/
def rightD (b : Fin 4) (j : Fin 512) (c : Fin 2) : EReal :=
  ∑ d : Fin 128, fusedD adj te nc E W1 b1 W2 b2 b j d * Wc (ix2 (half1 d) c)

/-- The logit of `(b, i, j, c)`, direct form. -/
def logitD (b : Fin 4) (i j : Fin 512) (c : Fin 2) : EReal :=
  (leftD adj te nc E W1 b1 W2 b2 Wc b i c + rightD adj te nc E W1 b1 W2 b2 Wc b j c) + bc (ix1 c)

/-- The result array, factored form. -/
def outF : SOut.Idx → EReal := fun o =>
  logitF adj te nc E W1 b1 W2 b2 Wc bc ⟨(o 0).val, (o 0).isLt⟩ ⟨(o 1).val, (o 1).isLt⟩ ⟨(o 2).val, (o 2).isLt⟩ ⟨(o 3).val, (o 3).isLt⟩

/-- The result array, direct form. -/
def outD : SOut.Idx → EReal := fun o =>
  logitD adj te nc E W1 b1 W2 b2 Wc bc ⟨(o 0).val, (o 0).isLt⟩ ⟨(o 1).val, (o 1).isLt⟩ ⟨(o 2).val, (o 2).isLt⟩ ⟨(o 3).val, (o 3).isLt⟩

end

end Cert.Denoise

end
-- ==== Proof.KPay2.lean ====
/-
  The first dense layer of the kernel body, read at an entry.

  The body forms the row means of its adjacency block, interpolates the two edge rows by them, multiplies by the
  first block of the stacked weight and adds ONE row that collects what does not depend on the node: the
  "no condition" row times the second block, the time row times the third block, and the bias.  A rectifier
  follows.  Each stage is read at an entry over the vectors it takes.
-/
import proofs.«419469_j44573170598305_4_alg».proof.Proof.KOps
import proofs.«419469_j44573170598305_4_alg».proof.Proof.LibColumn
import proofs.«419469_j44573170598305_4_alg».proof.Proof.Spec
import Idealize.ShloMosaic.Lib.ValueLayout

noncomputable section

open scoped BigOperators

namespace Cert.KernelIdeal.Hand

open Cert.KernelIdeal Cert.KernelIdeal.Gen Idealize.ShloMosaic Idealize.ShloMosaic.ValueIdx Cert.Denoise

/-- The column of row means: the row sum of the block's entries, read as signed integers, over the float `512`. -/
theorem mean_apply (v0 : IVec S1x512x512 32) (i : Fin 512) (u : Fin 1) :
    divf (shapeCast S512x1 (multiReduction .add [1] S512 (sitofp (F := Ideal) .f32 (shapeCast S512x512 v0 shapeCasts_S1x512x512_S512x512)) 0x00000000#32 reduces_S512x512_S512 (.inl rfl) rfl) shapeCasts_S512_S512x1)
      (broadcast S512x1 (Scalar.ofBits (F := Ideal) .f32 0x44000000#32)) (ix2 i u)
    = Ideal.div (∑ j : Fin 512, (((v0 (ix3 (0 : Fin 1) i j)).toInt : ℝ) : EReal)) (Ideal.ofBits .f32 0x44000000#32) := by
  show Ideal.div (shapeCast S512x1 _ shapeCasts_S512_S512x1 (ix2 i u)) (Ideal.ofBits .f32 0x44000000#32) = _
  congr 1
  refine (Cert.LibColumn.shapeCast_a_a1_apply _ shapeCasts_S512_S512x1 i u).trans ?_
  refine (Cert.LibColumn.sumAxis1_apply _ 0x00000000#32 reduces_S512x512_S512 (.inl rfl) rfl i).trans ?_
  refine Finset.sum_congr rfl fun j _ => ?_
  show (((shapeCast S512x512 v0 shapeCasts_S1x512x512_S512x512 (ix2 i j)).toInt : ℝ) : EReal) = _
  rw [shapeCast_1ab_ab_apply]

/-- The node embedding: the first edge row plus the row mean times the difference of the two edge rows. -/
theorem node_apply (v6 : FVec Ideal S512x1 .f32) (v7 v9 : FVec Ideal S1x128 .f32) (i : Fin 512) (k : Fin 128) :
    addf (broadcastTo S512x128 (shapeCast S1x128 (shapeCast S128 v7 shapeCasts_S1x128_S128) shapeCasts_S128_S1x128) broadcasts_S1x128_S512x128)
      (mulf (broadcastTo S512x128 v6 broadcasts_S512x1_S512x128)
        (broadcastTo S512x128 (shapeCast S1x128 (subf (shapeCast S128 v9 shapeCasts_S1x128_S128) (shapeCast S128 v7 shapeCasts_S1x128_S128)) shapeCasts_S128_S1x128) broadcasts_S1x128_S512x128)) (ix2 i k)
    = v7 (ix2 (0 : Fin 1) k) + v6 (ix2 i (0 : Fin 1)) * (v9 (ix2 (0 : Fin 1) k) - v7 (ix2 (0 : Fin 1) k)) := by
  simp only [addf_apply, mulf_apply, broadcastTo_1b_ab_apply, shapeCast_a_1a_apply, subf_apply, shapeCast_1a_a_apply,
    Cert.LibColumn.broadcastTo_a1_ab_apply]

/-- The row every node shares: the "no condition" row through the second block of the stacked weight, the time
    row through the third, and the bias. -/
theorem rest_apply (v19 : FVec Ideal S384x128 .f32) (v23 : FVec Ideal S128 .f32) (v25 : FVec Ideal S1x1x128 .f32) (v30 : FVec Ideal S128 .f32)
    (d : Fin 128) :
    addf (addf (matmul dot_S1x128_S128x128_S1x128_1_0_0_1_n_n none (shapeCast S1x128 v23 shapeCasts_S128_S1x128) (extractStridedSlice S128x128 ![128, 0] v19 slices_S384x128_o128_0_S128x128) (constant (F := Ideal) S1x128 .f32 0x00000000#32))
        (matmul dot_S1x128_S128x128_S1x128_1_0_0_1_n_n none (shapeCast S1x128 v25 shapeCasts_S1x1x128_S1x128) (extractStridedSlice S128x128 ![256, 0] v19 slices_S384x128_o256_0_S128x128) (constant (F := Ideal) S1x128 .f32 0x00000000#32)))
      (shapeCast S1x128 v30 shapeCasts_S128_S1x128) (ix2 (0 : Fin 1) d)
    = (∑ k : Fin 128, v23 (ix1 k) * v19 (ix2 (blk1 k) d) + ∑ k : Fin 128, v25 (ix3 (0 : Fin 1) (0 : Fin 1) k) * v19 (ix2 (blk2 k) d)) + v30 (ix1 d) := by
  simp only [addf_apply, matmulR_apply, shapeCast_a_1a_apply, shapeCast_1ab_ab_apply, slice2_axis0_eq]

/-- The first layer at an entry: the node's product with the first block, the shared row, the rectifier. -/
theorem hid_apply (v18 : FVec Ideal S512x128 .f32) (v19 : FVec Ideal S384x128 .f32) (v32 : FVec Ideal S1x128 .f32) (i : Fin 512) (d : Fin 128) :
    maximumf (addf (matmul dot_S512x128_S128x128_S512x128_1_0_0_1_n_n none v18 (extractStridedSlice S128x128 ![0, 0] v19 slices_S384x128_o0_0_S128x128) (constant (F := Ideal) S512x128 .f32 0x00000000#32))
        (broadcastTo S512x128 v32 broadcasts_S1x128_S512x128))
      (broadcast S512x128 (Scalar.ofBits (F := Ideal) .f32 0x00000000#32)) (ix2 i d)
    = max (∑ k : Fin 128, v18 (ix2 i k) * v19 (ix2 (blk0 k) d) + v32 (ix2 (0 : Fin 1) d)) 0 := by
  show max (matmul dot_S512x128_S128x128_S512x128_1_0_0_1_n_n none v18 _ (constant (F := Ideal) S512x128 .f32 0x00000000#32) (ix2 i d)
      + broadcastTo S512x128 v32 broadcasts_S1x128_S512x128 (ix2 i d)) (Ideal.ofBits .f32 0x00000000#32) = _
  rw [Ideal.ofBits_zero_f32, matmulH_apply, broadcastTo_1b_ab_apply]
  congr 2
  refine Finset.sum_congr rfl fun k _ => ?_
  rw [slice2_axis0_eq]
  exact congrArg (fun r : Fin 384 => v18 (ix2 i k) * v19 (ix2 r d)) (Fin.ext (Nat.zero_add _))

/-- The first half of the body at an entry. -/
theorem pay2_apply (v0 : IVec S1x512x512 32) (v7 v9 : FVec Ideal S1x128 .f32) (v19 : FVec Ideal S384x128 .f32) (v23 : FVec Ideal S128 .f32)
    (v25 : FVec Ideal S1x1x128 .f32) (v30 : FVec Ideal S128 .f32) (i : Fin 512) (d : Fin 128) :
    k0_pay2 (F := Ideal) v0 v7 v9 v19 v23 v25 v30 (ix2 i d)
      = max (∑ k : Fin 128,
            (v7 (ix2 (0 : Fin 1) k)
              + Ideal.div (∑ j : Fin 512, (((v0 (ix3 (0 : Fin 1) i j)).toInt : ℝ) : EReal)) (Ideal.ofBits .f32 0x44000000#32)
                * (v9 (ix2 (0 : Fin 1) k) - v7 (ix2 (0 : Fin 1) k))) * v19 (ix2 (blk0 k) d)
          + ((∑ k : Fin 128, v23 (ix1 k) * v19 (ix2 (blk1 k) d) + ∑ k : Fin 128, v25 (ix3 (0 : Fin 1) (0 : Fin 1) k) * v19 (ix2 (blk2 k) d))
            + v30 (ix1 d))) 0 := by
  unfold k0_pay2
  dsimp only
  refine (hid_apply _ v19 _ i d).trans ?_
  congr 2
  · refine Finset.sum_congr rfl fun k _ => ?_
    congr 1
    refine (node_apply _ v7 v9 i k).trans ?_
    rw [mean_apply]
  · exact rest_apply v19 v23 v25 v30 d

end Cert.KernelIdeal.Hand

end
-- ==== Proof.KPay1.lean ====
/-
  The second half of the kernel body, read at one entry of the block it writes.

  The block is a `[1, 512, 1024]` table: lane `c * 512 + j` of row `i` holds the logit of the pair `(i, j)` in class `c`.
  It is built from the rectified second layer (a product with the weight from a zero accumulator, a bias row, the maximum
  with zero), the product of that layer with the upper half of the classifier weight plus the bias (one column per class,
  spread along the lanes), and the lower half of the classifier weight contracted with the layer over the 128 (one row per
  class, spread over the rows).  Each stage is read at explicit coordinates and the stages are then composed.
-/
import proofs.«419469_j44573170598305_4_alg».proof.Proof.KOps
import proofs.«419469_j44573170598305_4_alg».proof.Proof.LibColumn
import proofs.«419469_j44573170598305_4_alg».proof.Proof.Spec
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx Cert.Denoise
open Cert.LibColumn

/-! ## The second layer at an entry -/

/-- The rectified second layer: the product with the weight from a zero accumulator, the bias row added,
    the maximum with zero. -/
def fusedK (w : FVec Ideal S512x128 .f32) (v38 : FVec Ideal S128x128 .f32) (v40 : FVec Ideal S128 .f32) :
    FVec Ideal S512x128 .f32 :=
  maximumf
    (addf (matmul dot_S512x128_S128x128_S512x128_1_0_0_1_n_n none w v38 (constant (F := Ideal) S512x128 .f32 0x00000000#32))
      (broadcastTo S512x128 (shapeCast S1x128 v40 shapeCasts_S128_S1x128) broadcasts_S1x128_S512x128))
    (broadcast S512x128 (Scalar.ofBits (F := Ideal) .f32 0x00000000#32))

theorem fusedK_apply (w : FVec Ideal S512x128 .f32) (v38 : FVec Ideal S128x128 .f32) (v40 : FVec Ideal S128 .f32)
    (i : Fin 512) (d : Fin 128) :
    fusedK w v38 v40 (ix2 i d) = max (∑ e : Fin 128, w (ix2 i e) * v38 (ix2 e d) + v40 (ix1 d)) 0 := by
  show max (matmul dot_S512x128_S128x128_S512x128_1_0_0_1_n_n none w v38 (constant (F := Ideal) S512x128 .f32 0x00000000#32) (ix2 i d)
      + broadcastTo S512x128 (shapeCast S1x128 v40 shapeCasts_S128_S1x128) broadcasts_S1x128_S512x128 (ix2 i d))
    (Ideal.ofBits .f32 0x00000000#32) = _
  rw [matmulH_apply, broadcastTo_1b_ab_apply, shapeCast_a_1a_apply, Ideal.ofBits_zero_f32]

/-! ## The two classifier products at an entry -/

/-- The term of the row node, with the bias: the product with the upper half of the classifier weight, the bias row added. -/
def leftK (y : FVec Ideal S512x128 .f32) (v46 : FVec Ideal S256x2 .f32) (v50 : FVec Ideal S2 .f32) : FVec Ideal S512x2 .f32 :=
  addf (matmul dot_S512x128_S128x2_S512x2_1_0_0_1_n_n none y (extractStridedSlice S128x2 ![0, 0] v46 slices_S256x2_o0_0_S128x2)
      (constant (F := Ideal) S512x2 .f32 0x00000000#32))
    (broadcastTo S512x2 (shapeCast S1x2 v50 shapeCasts_S2_S1x2) broadcasts_S1x2_S512x2)

theorem leftK_apply (y : FVec Ideal S512x128 .f32) (v46 : FVec Ideal S256x2 .f32) (v50 : FVec Ideal S2 .f32)
    (i : Fin 512) (c : Fin 2) :
    leftK y v46 v50 (ix2 i c) = ∑ d : Fin 128, y (ix2 i d) * v46 (ix2 (half0 d) c) + v50 (ix1 c) := by
  show matmul dot_S512x128_S128x2_S512x2_1_0_0_1_n_n none y (extractStridedSlice S128x2 ![0, 0] v46 slices_S256x2_o0_0_S128x2)
      (constant (F := Ideal) S512x2 .f32 0x00000000#32) (ix2 i c)
    + broadcastTo S512x2 (shapeCast S1x2 v50 shapeCasts_S2_S1x2) broadcasts_S1x2_S512x2 (ix2 i c) = _
  rw [matmulC_apply, broadcastTo_1b_ab_apply, shapeCast_a_1a_apply]
  refine congrArg (· + _) (Finset.sum_congr rfl fun d _ => ?_)
  rw [slice2_axis0_apply 0 v46 slices_S256x2_o0_0_S128x2 d c (half0 d) (Nat.zero_add _).symm]

/-- The term of the column node: the lower half of the classifier weight contracted with the layer over the 128. -/
def rightK (y : FVec Ideal S512x128 .f32) (v46 : FVec Ideal S256x2 .f32) : FVec Ideal S2x512 .f32 :=
  matmul dot_S128x2_S512x128_S2x512_0_1_1_0_n_n none (extractStridedSlice S128x2 ![128, 0] v46 slices_S256x2_o128_0_S128x2) y
    (constant (F := Ideal) S2x512 .f32 0x00000000#32)

theorem rightK_apply (y : FVec Ideal S512x128 .f32) (v46 : FVec Ideal S256x2 .f32) (c : Fin 2) (j : Fin 512) :
    rightK y v46 (ix2 c j) = ∑ d : Fin 128, v46 (ix2 (half1 d) c) * y (ix2 j d) := by
  unfold rightK
  rw [matmulT_apply]
  refine Finset.sum_congr rfl fun d _ => ?_
  rw [slice2_axis0_apply 128 v46 slices_S256x2_o128_0_S128x2 d c (half1 d) rfl]

/-! ## The pair table: the two columns spread along the lanes, the two rows spread over the rows -/

/-- Columns 0 and 1 of a `[512, 2]` array, each spread over 512 lanes, side by side. -/
def colsK (u : FVec Ideal S512x2 .f32) : FVec Ideal S512x1024 .f32 :=
  concatenate S512x1024 1
    [⟨S512x512, broadcastTo S512x512 (shapeCast S512x1 (extractStridedSlice S512x1 ![0, 0] u slices_S512x2_o0_0_S512x1)
        shapeCasts_S512x1_S512x1) broadcasts_S512x1_S512x512⟩,
     ⟨S512x512, broadcastTo S512x512 (shapeCast S512x1 (extractStridedSlice S512x1 ![0, 1] u slices_S512x2_o0_1_S512x1)
        shapeCasts_S512x1_S512x1) broadcasts_S512x1_S512x512⟩]
    concatenates_S512x512_S512x512_S512x1024_d1

theorem colsK_apply0 (u : FVec Ideal S512x2 .f32) (i j : Fin 512) (J : Fin 1024) (hJ : J.val = j.val) :
    colsK u (ix2 i J) = u (ix2 i (0 : Fin 2)) := by
  unfold colsK
  refine (concat_lanes_left (a := 512) (n := 512) _ _ concatenates_S512x512_S512x512_S512x1024_d1 i j J hJ).trans ?_
  refine (broadcastTo_a1_ab_apply _ broadcasts_S512x1_S512x512 i j).trans ?_
  rw [shapeCast_self]
  exact slice2_axis1_apply 0 u slices_S512x2_o0_0_S512x1 i (0 : Fin 1) (0 : Fin 2) rfl

theorem colsK_apply1 (u : FVec Ideal S512x2 .f32) (i j : Fin 512) (J : Fin 1024) (hJ : J.val = 512 + j.val) :
    colsK u (ix2 i J) = u (ix2 i (1 : Fin 2)) := by
  unfold colsK
  refine (concat_lanes_right (a := 512) (n := 512) _ _ concatenates_S512x512_S512x512_S512x1024_d1 i j J hJ).trans ?_
  refine (broadcastTo_a1_ab_apply _ broadcasts_S512x1_S512x512 i j).trans ?_
  rw [shapeCast_self]
  exact slice2_axis1_apply 1 u slices_S512x2_o0_1_S512x1 i (0 : Fin 1) (1 : Fin 2) rfl

/-- A class index is the first or the second. -/
theorem fin2_cases (c : Fin 2) : c = 0 ∨ c = 1 := by
  have h := c.isLt
  have h' : c.val = 0 ∨ c.val = 1 := by omega
  rcases h' with h0 | h1
  · exact Or.inl (Fin.ext h0)
  · exact Or.inr (Fin.ext h1)

theorem colsK_apply (u : FVec Ideal S512x2 .f32) (i j : Fin 512) (c : Fin 2) (J : Fin 1024)
    (hJ : J.val = c.val * 512 + j.val) : colsK u (ix2 i J) = u (ix2 i c) := by
  rcases fin2_cases c with rfl | rfl
  · exact colsK_apply0 u i j J (by rw [hJ]; show 0 * 512 + j.val = j.val; omega)
  · exact colsK_apply1 u i j J (by rw [hJ]; show 1 * 512 + j.val = 512 + j.val; omega)

/-- Rows 0 and 1 of a `[2, 512]` array side by side, spread over 512 rows. -/
def rowsK (t : FVec Ideal S2x512 .f32) : FVec Ideal S512x1024 .f32 :=
  broadcastTo S512x1024
    (concatenate S1x1024 1
      [⟨S1x512, extractStridedSlice S1x512 ![0, 0] t slices_S2x512_o0_0_S1x512⟩,
       ⟨S1x512, extractStridedSlice S1x512 ![1, 0] t slices_S2x512_o1_0_S1x512⟩]
      concatenates_S1x512_S1x512_S1x1024_d1)
    broadcasts_S1x1024_S512x1024

theorem rowsK_apply0 (t : FVec Ideal S2x512 .f32) (i j : Fin 512) (J : Fin 1024) (hJ : J.val = j.val) :
    rowsK t (ix2 i J) = t (ix2 (0 : Fin 2) j) := by
  unfold rowsK
  refine (broadcastTo_1b_ab_apply _ broadcasts_S1x1024_S512x1024 i J).trans ?_
  refine (concat_lanes_left (a := 1) (n := 512) _ _ concatenates_S1x512_S1x512_S1x1024_d1 (0 : Fin 1) j J hJ).trans ?_
  exact slice2_axis0_apply 0 t slices_S2x512_o0_0_S1x512 (0 : Fin 1) j (0 : Fin 2) rfl

theorem rowsK_apply1 (t : FVec Ideal S2x512 .f32) (i j : Fin 512) (J : Fin 1024) (hJ : J.val = 512 + j.val) :
    rowsK t (ix2 i J) = t (ix2 (1 : Fin 2) j) := by
  unfold rowsK
  refine (broadcastTo_1b_ab_apply _ broadcasts_S1x1024_S512x1024 i J).trans ?_
  refine (concat_lanes_right (a := 1) (n := 512) _ _ concatenates_S1x512_S1x512_S1x1024_d1 (0 : Fin 1) j J hJ).trans ?_
  exact slice2_axis0_apply 1 t slices_S2x512_o1_0_S1x512 (0 : Fin 1) j (1 : Fin 2) rfl

theorem rowsK_apply (t : FVec Ideal S2x512 .f32) (i j : Fin 512) (c : Fin 2) (J : Fin 1024)
    (hJ : J.val = c.val * 512 + j.val) : rowsK t (ix2 i J) = t (ix2 c j) := by
  rcases fin2_cases c with rfl | rfl
  · exact rowsK_apply0 t i j J (by rw [hJ]; show 0 * 512 + j.val = j.val; omega)
  · exact rowsK_apply1 t i j J (by rw [hJ]; show 1 * 512 + j.val = 512 + j.val; omega)

/-! ## The payload at an entry -/

theorem pay1_apply (v37 : FVec Ideal S512x128 .f32) (v38 : Vec Ideal S128x128 .f32) (v40 : Vec Ideal S128 .f32) (v46 : Vec Ideal S256x2 .f32) (v50 : Vec Ideal S2 .f32)
    (i j : Fin 512) (c : Fin 2) (J : Fin 1024) (hJ : J.val = c.val * 512 + j.val) :
    k0_pay1 (F := Ideal) v37 v38 v40 v46 v50 (ix3 (0 : Fin 1) i J)
      = (∑ d : Fin 128, max (∑ e : Fin 128, v37 (ix2 i e) * v38 (ix2 e d) + v40 (ix1 d)) 0 * v46 (ix2 (half0 d) c) + v50 (ix1 c))
        + ∑ d : Fin 128, v46 (ix2 (half1 d) c) * max (∑ e : Fin 128, v37 (ix2 j e) * v38 (ix2 e d) + v40 (ix1 d)) 0 := by
  show shapeCast S1x512x1024
      (addf (colsK (leftK (fusedK v37 v38 v40) v46 v50)) (rowsK (rightK (fusedK v37 v38 v40) v46)))
      shapeCasts_S512x1024_S1x512x1024 (ix3 (0 : Fin 1) i J) = _
  refine (shapeCast_ab_1ab_apply _ shapeCasts_S512x1024_S1x512x1024 (0 : Fin 1) i J).trans ?_
  show colsK (leftK (fusedK v37 v38 v40) v46 v50) (ix2 i J) + rowsK (rightK (fusedK v37 v38 v40) v46) (ix2 i J) = _
  rw [colsK_apply _ i j c J hJ, rowsK_apply _ i j c J hJ, leftK_apply, rightK_apply]
  simp only [fusedK_apply]

end Cert.KernelIdeal.Hand

end
-- ==== Proof.KPoint.lean ====
/-
  What one grid point writes back, entry by entry.

  At grid point `b` the body sees block `b` of the adjacency array and row `b` of the time rows, and the other
  arguments whole.  Its result block, read at row `i` and lane `J`, is the factored logit of the pair
  `(i, J mod 512)` in class `J / 512`: the lanes hold class 0 for every `j`, then class 1 for every `j`.
-/
import proofs.«419469_j44573170598305_4_alg».proof.Proof.Gen.KernelIdeal.Frame
import proofs.«419469_j44573170598305_4_alg».proof.Proof.KPay2
import proofs.«419469_j44573170598305_4_alg».proof.Proof.KPay1
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.ShloMosaic.ValueIdx Cert.Denoise
open Idealize.SL.Sem

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The load of the first row of the two edge rows. -/
theorem ld_edge0 (E : Vec Ideal S2x128 .f32) (k : Fin 128) :
    View.ld (Val := Elt Ideal) (e' := .f32) E r0_1 (ix2 (0 : Fin 1) k) = E (ix2 (0 : Fin 2) k) := by
  show E (r0_1.idx (ix2 (0 : Fin 1) k)) = _
  refine congrArg E (funext fun a => Fin.ext ?_)
  match a with
  | ⟨0, _⟩ => rfl
  | ⟨1, _⟩ => show 0 + 1 * k.val = k.val; omega

/-- The load of the second row. -/
theorem ld_edge1 (E : Vec Ideal S2x128 .f32) (k : Fin 128) :
    View.ld (Val := Elt Ideal) (e' := .f32) E r0_2 (ix2 (0 : Fin 1) k) = E (ix2 (1 : Fin 2) k) := by
  show E (r0_2.idx (ix2 (0 : Fin 1) k)) = _
  refine congrArg E (funext fun a => Fin.ext ?_)
  match a with
  | ⟨0, _⟩ => rfl
  | ⟨1, _⟩ => show 0 + 1 * k.val = k.val; omega

/-- The time rows: row `t[b]` of the time table for each batch element, with a negative `t[b]` first moved up by
    the table's length (the host's gather then clamps into the table). -/
def timeRows (t : IVec S4 32) (T : FVec Ideal S1001x128 .f32) : FVec Ideal S4x128 .f32 :=
  Host.gather gather_S1001x128_S4x1_S4x128_1_0_n_n_0_1_1128 T
    (broadcastInDim S4x1 ![0] bcast_S4_S4x1_0
      (select (cmpi .slt t (broadcastInDim S4 ![] bcast_S_S4 (constantI S_ 32 0#32)))
        (addi t (broadcastInDim S4 ![] bcast_S_S4 (constantI S_ 32 1001#32))) t))

/-- What the body leaves in its result block, at row `i` and lane `J`: the factored logit of the pair
    `(i, J mod 512)` in class `J / 512`, over the arrays the blocks are cut from. -/
theorem point_eq (A : IVec S4x512x512 32) (te : FVec Ideal S4x128 .f32)
    (nc : FVec Ideal S128 .f32) (E : FVec Ideal S2x128 .f32) (W1 : FVec Ideal S384x128 .f32) (b1 : FVec Ideal S128 .f32)
    (W2 : FVec Ideal S128x128 .f32) (b2 : FVec Ideal S128 .f32) (Wc : FVec Ideal S256x2 .f32) (bc : FVec Ideal S2 .f32)
    (b : Fin 4) (x0 : IVec S1x512x512 32) (h0 : ∀ i j, x0 (ix3 (0 : Fin 1) i j) = A (ix3 b i j))
    (x1 : FVec Ideal S1x1x128 .f32) (h1 : ∀ k, x1 (ix3 (0 : Fin 1) (0 : Fin 1) k) = te (ix2 b k))
    (u : Fin 1) (i : Fin 512) (J : Fin 1024) :
    out0_10 (F := Ideal) x0 x1 nc E W1 b1 W2 b2 Wc bc (ix3 u i J)
      = logitF A te nc E W1 b1 W2 b2 Wc bc b i ⟨J.val % 512, Nat.mod_lt _ (by decide)⟩
          ⟨J.val / 512, by have := J.isLt; omega⟩ := by
  obtain rfl : u = 0 := Subsingleton.elim _ _
  have hJ := J.isLt
  unfold out0_10
  rw [View.canon_unit_zero hz3]
  simp only [View.ld_unit_zero (S := S1x512x512) hz3, View.ld_unit_zero (S := S384x128) hz2, View.ld_unit_zero (S := S128) hz1,
    View.ld_unit_zero (S := S1x1x128) hz3, View.ld_unit_zero (S := S128x128) hz2, View.ld_unit_zero (S := S256x2) hz2,
    View.ld_unit_zero (S := S2) hz1]
  refine (pay1_apply _ W2 b2 Wc bc i ⟨J.val % 512, Nat.mod_lt _ (by decide)⟩ ⟨J.val / 512, by omega⟩ J
    (by show J.val = J.val / 512 * 512 + J.val % 512; omega)).trans ?_
  unfold logitF leftF rightF fusedF hidF nodeF restF rowMean
  simp only [pay2_apply, h0, h1]
  have e0 := ld_edge0 E
  have e1 := ld_edge1 E
  generalize View.ld (Val := Elt Ideal) (e' := .f32) E r0_1 = R0 at e0 ⊢
  generalize View.ld (Val := Elt Ideal) (e' := .f32) E r0_2 = R1 at e1 ⊢
  simp only [e0, e1]

variable (m : (ℓ : Loc nD τ sig) → Buf (Elt Ideal) ℓ) (ρ : Dev nD → PrngReg)

/-- The array the region's second window reads is the time rows with a unit axis in the middle. -/
theorem V_v7 (c : Dev nD) :
    (V m c main_v7 : S4x1x128.Idx → EReal)
      = broadcastInDim S4x1x128 ![0, 2] bcast_S4x128_S4x1x128_0_2
          (timeRows (m ((c : Thread nD τ).loc main_arg1)) (m ((c : Thread nD τ).loc main_arg2))) := by
  show StableHlo.after hostOps0 (fun b => m (c, b)) (Proc.devRef .tc main_v7) = _
  after_results
  rfl

/-- … so its entry `(b, 0, k)` is entry `(b, k)` of the time rows. -/
theorem V_v7_apply (c : Dev nD) (b : Fin 4) (u : Fin 1) (k : Fin 128) :
    (V m c main_v7 : S4x1x128.Idx → EReal) (ix3 b u k)
      = timeRows (m ((c : Thread nD τ).loc main_arg1)) (m ((c : Thread nD τ).loc main_arg2)) (ix2 b k) := by
  rw [V_v7]
  exact broadcastInDim_apply _ bcast_S4x128_S4x1x128_0_2 _ (ix3 b u k) (ix2 b k) fun a =>
    match a with
    | ⟨0, _⟩ => by show b.val = if (4 : Nat) = 1 then 0 else b.val; rw [if_neg (by decide)]
    | ⟨1, _⟩ => by show k.val = if (128 : Nat) = 1 then 0 else k.val; rw [if_neg (by decide)]

end Cert.KernelIdeal.Hand

end
-- ==== Proof.KTail.lean ====
/-
  The last two host operations of the kernel's program, read at an index.

  The region's result `X` has shape `[4, 512, 1024]`.  It is reshaped to `[4, 512, 2, 512]`, which splits the
  last coordinate `J` as `c · 512 + j`, and then the last two axes are swapped, to `[4, 512, 512, 2]`.  So the
  final array at `(b, i, j, c)` is `X` at `(b, i, c · 512 + j)`.
-/
import proofs.«419469_j44573170598305_4_alg».proof.Proof.Gen.KernelIdeal
import Idealize.ShloMosaic.Lib.Pipeline.Value
import Idealize.ShloMosaic.Lib.ValueIdx

namespace Cert.KernelIdeal.Hand

open Cert.KernelIdeal Cert.KernelIdeal.Gen Idealize.ShloMosaic Idealize.ShloMosaic.ValueIdx

/-- The swap of the last two axes reads, at `(b, i, j, c)`, the operand at `(b, i, c, j)`. -/
theorem transpose_0132_apply {α : Type} (Y : S4x512x2x512.Idx → α)
    (ht : S4x512x2x512.Transposes [0, 1, 3, 2] S4x512x512x2) (b : Fin 4) (i j : Fin 512) (c : Fin 2) :
    transpose S4x512x512x2 [0, 1, 3, 2] Y ht (ix4 b i j c) = Y (ix4 b i c j) :=
  transpose_apply _ Y ht _ _ fun a => match a with | ⟨0, _⟩ => rfl | ⟨1, _⟩ => rfl | ⟨2, _⟩ => rfl | ⟨3, _⟩ => rfl

/-- The reshape reads, at `(b, i, c, j)`, the operand at `(b, i, J)` with `J = c · 512 + j`: the two indices have
    the same row-major position. -/
theorem reshape_split_apply {α : Type} (X : S4x512x1024.Idx → α) (hs : S4x512x1024.ShapeCasts S4x512x2x512)
    (b : Fin 4) (i j : Fin 512) (c : Fin 2) (J : Fin 1024) (hJ : J.val = c.val * 512 + j.val) :
    shapeCast S4x512x2x512 X hs (ix4 b i c j) = X (ix3 b i J) :=
  shapeCast_apply X hs _ _ (by
    rw [Shape.rowMajor_val_three, Shape.rowMajor_val_four]
    show (b.val * 512 + i.val) * 1024 + J.val = ((b.val * 512 + i.val) * 2 + c.val) * 512 + j.val
    omega)

/-- The two operations together, for any evidence of their shape relations. -/
theorem tail_apply_of {α : Type} (X : S4x512x1024.Idx → α) (hs : S4x512x1024.ShapeCasts S4x512x2x512)
    (ht : S4x512x2x512.Transposes [0, 1, 3, 2] S4x512x512x2)
    (b : Fin 4) (i j : Fin 512) (c : Fin 2) (J : Fin 1024) (hJ : J.val = c.val * 512 + j.val) :
    transpose S4x512x512x2 [0, 1, 3, 2] (shapeCast S4x512x2x512 X hs) ht (ix4 b i j c) = X (ix3 b i J) := by
  rw [transpose_0132_apply, reshape_split_apply X hs b i j c J hJ]

/-- The final array at `(b, i, j, c)` is the region's result at `(b, i, c · 512 + j)`. -/
theorem tail_apply {α : Type} (X : S4x512x1024.Idx → α) (b : Fin 4) (i j : Fin 512) (c : Fin 2) (J : Fin 1024)
    (hJ : J.val = c.val * 512 + j.val) :
    transpose S4x512x512x2 [0, 1, 3, 2] (shapeCast S4x512x2x512 X shapeCasts_S4x512x1024_S4x512x2x512)
      transposes_S4x512x2x512_S4x512x512x2_0_1_3_2 (ix4 b i j c) = X (ix3 b i J) :=
  tail_apply_of X _ _ b i j c J hJ

end Cert.KernelIdeal.Hand
-- ==== Proof.KBlocks.lean ====
/-
  From the blocks to the arrays, and the run.

  The grid has one point per batch element.  Point `b` reads block `b` of the adjacency array and of the time
  rows and every other argument whole, and writes block `b` of a `[4, 512, 1024]` array; the four blocks tile it.
  So after the region that array holds, at `(b, i, J)`, the factored logit of `(b, i, J mod 512)` in class
  `J / 512`.  The two host operations after the region split the lanes into (class, j) and swap the two, which
  puts the logit of `(b, i, j, c)` at `(b, i, j, c)`.
-/
import proofs.«419469_j44573170598305_4_alg».proof.Proof.KPoint
import proofs.«419469_j44573170598305_4_alg».proof.Proof.KTail

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Cert.Denoise
open Idealize.SL.Sem
open Idealize.ShloMosaic.Pipeline (Dat)

variable (m : (ℓ : Loc nD τ sig) → Buf (Elt Ideal) ℓ) (ρ : Dev nD → PrngReg)

/-- The factored logit over the argument arrays as launched. -/
abbrev lgt (c : Dev nD) (b : Fin 4) (i j : Fin 512) (cc : Fin 2) : EReal :=
  logitF (m ((c : Thread nD τ).loc main_arg0)) (timeRows (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b i j cc

/-- What the region's result array holds in the end. -/
def regionOut (c : Dev nD) : S4x512x1024.Idx → EReal := fun o =>
  lgt m c ⟨(o 0).val, (o 0).isLt⟩ ⟨(o 1).val, (o 1).isLt⟩ ⟨(o 2).val % 512, Nat.mod_lt _ (by decide)⟩
    ⟨(o 2).val / 512, by have h : (o 2).val < 1024 := (o 2).isLt; omega⟩

/-- The printed index maps, decided over the four grid points: the three batched windows sit at block `(t, 0, 0)`,
    every other window at its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_10.index t (0 : Fin 3) = t.val ∧ win0_10.index t (1 : Fin 3) = 0 ∧ win0_10.index t (2 : Fin 3) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ t.val < 4 :=
  (by decide +kernel : ∀ t : Fin grid0.N, _)

/-! ## The input blocks -/

/-- Block `t` of the adjacency array is batch element `t`. -/
theorem iblk0_apply (c : Dev nD) (t : Fin cfg0.N) (ht : t.val < 4) (i j : Fin 512) :
    (iblk m c 0 t : S1x512x512.Idx → BitVec 32) (ix3 (0 : Fin 1) i j)
      = (m ((c : Thread nD τ).loc main_arg0) : S4x512x512.Idx → BitVec 32) (ix3 (⟨t.val, ht⟩ : Fin 4) i j) := by
  obtain ⟨f0, f1, f2, -⟩ := idx_facts t
  unfold iblk
  rw [View.read_apply]
  refine Eq.trans (congrArg (V m c main_arg0 : S4x512x512.Idx → BitVec 32) (?_ : _ = ix3 (⟨t.val, ht⟩ : Fin 4) i j))
    (congrFun (V_main_arg0 m c) _)
  funext a
  apply Fin.ext
  match a with
  | ⟨0, _⟩ => show win0_0.index t (0 : Fin 3) * 1 + 1 * 0 = t.val; rw [f0]; omega
  | ⟨1, _⟩ => show win0_0.index t (1 : Fin 3) * 512 + 1 * i.val = i.val; rw [f1]; omega
  | ⟨2, _⟩ => show win0_0.index t (2 : Fin 3) * 512 + 1 * j.val = j.val; rw [f2]; omega

/-- Block `t` of the time rows is the row of batch element `t`. -/
theorem iblk1_apply (c : Dev nD) (t : Fin cfg0.N) (ht : t.val < 4) (k : Fin 128) :
    (iblk m c 1 t : S1x1x128.Idx → EReal) (ix3 (0 : Fin 1) (0 : Fin 1) k)
      = timeRows (m ((c : Thread nD τ).loc main_arg1)) (m ((c : Thread nD τ).loc main_arg2)) (ix2 (⟨t.val, ht⟩ : Fin 4) k) := by
  obtain ⟨-, -, -, f0, f1, f2, -⟩ := idx_facts t
  unfold iblk
  rw [View.read_apply]
  refine Eq.trans (congrArg (V m c main_v7 : S4x1x128.Idx → EReal) (?_ : _ = ix3 (⟨t.val, ht⟩ : Fin 4) (0 : Fin 1) k))
    (V_v7_apply m c _ _ _)
  funext a
  apply Fin.ext
  match a with
  | ⟨0, _⟩ => show win0_1.index t (0 : Fin 3) * 1 + 1 * 0 = t.val; rw [f0]; omega
  | ⟨1, _⟩ => show win0_1.index t (1 : Fin 3) * 1 + 1 * 0 = 0; rw [f1]
  | ⟨2, _⟩ => show win0_1.index t (2 : Fin 3) * 128 + 1 * k.val = k.val; rw [f2]; omega

/-- Each other window's one block is its whole array, as launched. -/
theorem iblk2_eq (c : Dev nD) (t : Fin cfg0.N) :
    (iblk m c 2 t : S128.Idx → EReal) = m ((c : Thread nD τ).loc main_arg3) := by
  obtain ⟨-, -, -, -, -, -, -, -, -, g, -⟩ := idx_facts t
  have hz' : (fun a => win0_2.index t a * main_arg3.ty.shape.size a) = fun _ => 0 := funext fun a => by
    match a with
    | ⟨0, _⟩ => show win0_2.index t (0 : Fin 1) * 128 = 0; rw [g]
  unfold iblk
  exact (Memref.read_access_unit_zero (Elt Ideal) main_arg3 hz' (fun a => by rw [congrFun hz' a]; simp) (V m c main_arg3)).trans
    (V_main_arg3 m c)

theorem iblk3_eq (c : Dev nD) (t : Fin cfg0.N) :
    (iblk m c 3 t : S2x128.Idx → EReal) = m ((c : Thread nD τ).loc main_arg4) := by
  obtain ⟨-, -, -, -, -, -, -, -, -, -, g0, g1, -⟩ := idx_facts t
  have hz' : (fun a => win0_3.index t a * main_arg4.ty.shape.size a) = fun _ => 0 := funext fun a => by
    match a with
    | ⟨0, _⟩ => show win0_3.index t (0 : Fin 2) * 2 = 0; rw [g0]
    | ⟨1, _⟩ => show win0_3.index t (1 : Fin 2) * 128 = 0; rw [g1]
  unfold iblk
  exact (Memref.read_access_unit_zero (Elt Ideal) main_arg4 hz' (fun a => by rw [congrFun hz' a]; simp) (V m c main_arg4)).trans
    (V_main_arg4 m c)

theorem iblk4_eq (c : Dev nD) (t : Fin cfg0.N) :
    (iblk m c 4 t : S384x128.Idx → EReal) = m ((c : Thread nD τ).loc main_arg5) := by
  obtain ⟨-, -, -, -, -, -, -, -, -, -, -, -, g0, g1, -⟩ := idx_facts t
  have hz' : (fun a => win0_4.index t a * main_arg5.ty.shape.size a) = fun _ => 0 := funext fun a => by
    match a with
    | ⟨0, _⟩ => show win0_4.index t (0 : Fin 2) * 384 = 0; rw [g0]
    | ⟨1, _⟩ => show win0_4.index t (1 : Fin 2) * 128 = 0; rw [g1]
  unfold iblk
  exact (Memref.read_access_unit_zero (Elt Ideal) main_arg5 hz' (fun a => by rw [congrFun hz' a]; simp) (V m c main_arg5)).trans
    (V_main_arg5 m c)

theorem iblk5_eq (c : Dev nD) (t : Fin cfg0.N) :
    (iblk m c 5 t : S128.Idx → EReal) = m ((c : Thread nD τ).loc main_arg6) := by
  obtain ⟨-, -, -, -, -, -, -, -, -, -, -, -, -, -, g, -⟩ := idx_facts t
  have hz' : (fun a => win0_5.index t a * main_arg6.ty.shape.size a) = fun _ => 0 := funext fun a => by
    match a with
    | ⟨0, _⟩ => show win0_5.index t (0 : Fin 1) * 128 = 0; rw [g]
  unfold iblk
  exact (Memref.read_access_unit_zero (Elt Ideal) main_arg6 hz' (fun a => by rw [congrFun hz' a]; simp) (V m c main_arg6)).trans
    (V_main_arg6 m c)

theorem iblk6_eq (c : Dev nD) (t : Fin cfg0.N) :
    (iblk m c 6 t : S128x128.Idx → EReal) = m ((c : Thread nD τ).loc main_arg7) := by
  obtain ⟨-, -, -, -, -, -, -, -, -, -, -, -, -, -, -, g0, g1, -⟩ := idx_facts t
  have hz' : (fun a => win0_6.index t a * main_arg7.ty.shape.size a) = fun _ => 0 := funext fun a => by
    match a with
    | ⟨0, _⟩ => show win0_6.index t (0 : Fin 2) * 128 = 0; rw [g0]
    | ⟨1, _⟩ => show win0_6.index t (1 : Fin 2) * 128 = 0; rw [g1]
  unfold iblk
  exact (Memref.read_access_unit_zero (Elt Ideal) main_arg7 hz' (fun a => by rw [congrFun hz' a]; simp) (V m c main_arg7)).trans
    (V_main_arg7 m c)

theorem iblk7_eq (c : Dev nD) (t : Fin cfg0.N) :
    (iblk m c 7 t : S128.Idx → EReal) = m ((c : Thread nD τ).loc main_arg8) := by
  obtain ⟨-, -, -, -, -, -, -, -, -, -, -, -, -, -, -, -, -, g, -⟩ := idx_facts t
  have hz' : (fun a => win0_7.index t a * main_arg8.ty.shape.size a) = fun _ => 0 := funext fun a => by
    match a with
    | ⟨0, _⟩ => show win0_7.index t (0 : Fin 1) * 128 = 0; rw [g]
  unfold iblk
  exact (Memref.read_access_unit_zero (Elt Ideal) main_arg8 hz' (fun a => by rw [congrFun hz' a]; simp) (V m c main_arg8)).trans
    (V_main_arg8 m c)

theorem iblk8_eq (c : Dev nD) (t : Fin cfg0.N) :
    (iblk m c 8 t : S256x2.Idx → EReal) = m ((c : Thread nD τ).loc main_arg9) := by
  obtain ⟨-, -, -, -, -, -, -, -, -, -, -, -, -, -, -, -, -, -, g0, g1, -⟩ := idx_facts t
  have hz' : (fun a => win0_8.index t a * main_arg9.ty.shape.size a) = fun _ => 0 := funext fun a => by
    match a with
    | ⟨0, _⟩ => show win0_8.index t (0 : Fin 2) * 256 = 0; rw [g0]
    | ⟨1, _⟩ => show win0_8.index t (1 : Fin 2) * 2 = 0; rw [g1]
  unfold iblk
  exact (Memref.read_access_unit_zero (Elt Ideal) main_arg9 hz' (fun a => by rw [congrFun hz' a]; simp) (V m c main_arg9)).trans
    (V_main_arg9 m c)

theorem iblk9_eq (c : Dev nD) (t : Fin cfg0.N) :
    (iblk m c 9 t : S2.Idx → EReal) = m ((c : Thread nD τ).loc main_arg10) := by
  obtain ⟨-, -, -, -, -, -, -, -, -, -, -, -, -, -, -, -, -, -, -, -, g, -⟩ := idx_facts t
  have hz' : (fun a => win0_9.index t a * main_arg10.ty.shape.size a) = fun _ => 0 := funext fun a => by
    match a with
    | ⟨0, _⟩ => show win0_9.index t (0 : Fin 1) * 2 = 0; rw [g]
  unfold iblk
  exact (Memref.read_access_unit_zero (Elt Ideal) main_arg10 hz' (fun a => by rw [congrFun hz' a]; simp) (V m c main_arg10)).trans
    (V_main_arg10 m c)

/-! ## What a point writes back, and the array after the region -/

/-- Point `t` writes back block `t` of `regionOut`. -/
theorem flushed_eq (c : Dev nD) (t : Fin cfg0.N) :
    (dats (F := Ideal) m 0 c).flushed 10 t = ((cfg0.win 10).blk t).view.read (Elt Ideal) (regionOut m c) := by
  show (cfg0.win 10).cut (grid0.coords t) ((dats m 0 c).after 10 t) = _
  rw [after0_10]
  obtain ⟨-, -, -, -, -, -, g0, g1, g2, -, -, -, -, -, -, -, -, -, -, -, -, ht⟩ := idx_facts t
  funext y
  rw [View.read_apply]
  have hy0 : (y 0).val < 1 := (y 0).isLt
  have hy1 : (y 1).val < 512 := (y 1).isLt
  have hy2 : (y 2).val < 1024 := (y 2).isLt
  have e0 : ((((cfg0.win 10).blk t).view.emb y) (0 : Fin 3)).val = t.val := by
    show win0_10.index t (0 : Fin 3) * 1 + 1 * (y 0).val = t.val; rw [g0]; omega
  have e1 : ((((cfg0.win 10).blk t).view.emb y) (1 : Fin 3)).val = (y 1).val := by
    show win0_10.index t (1 : Fin 3) * 512 + 1 * (y 1).val = (y 1).val; rw [g1]; omega
  have e2 : ((((cfg0.win 10).blk t).view.emb y) (2 : Fin 3)).val = (y 2).val := by
    show win0_10.index t (2 : Fin 3) * 1024 + 1 * (y 2).val = (y 2).val; rw [g2]; omega
  have hy : (y : S1x512x1024.Idx) = ix3 (⟨(y 0).val, hy0⟩ : Fin 1) (⟨(y 1).val, hy1⟩ : Fin 512) (⟨(y 2).val, hy2⟩ : Fin 1024) :=
    funext fun a => match a with
      | ⟨0, _⟩ => rfl
      | ⟨1, _⟩ => rfl
      | ⟨2, _⟩ => rfl
  rw [iblk2_eq, iblk3_eq, iblk4_eq, iblk5_eq, iblk6_eq, iblk7_eq, iblk8_eq, iblk9_eq]
  refine Eq.trans (congrArg (out0_10 (F := Ideal) (iblk m c 0 t) (iblk m c 1 t) _ _ _ _ _ _ _ _) hy) ?_
  refine (point_eq (m ((c : Thread nD τ).loc main_arg0))
    (timeRows (m ((c : Thread nD τ).loc main_arg1)) (m ((c : Thread nD τ).loc main_arg2)))
    _ _ _ _ _ _ _ _ (⟨t.val, ht⟩ : Fin 4) (iblk m c 0 t) (iblk0_apply m c t ht) (iblk m c 1 t) (iblk1_apply m c t ht) _ _ _).trans ?_
  unfold regionOut lgt
  simp only [e0, e1, e2]
  rfl

/-- An index of the `[4, 512, 1024]` array is in point `t`'s block iff each coordinate is in the block's range. -/
theorem mem_blk (t : Fin cfg0.N) (o : S4x512x1024.Idx) :
    o ∈ ((cfg0.win 10).blk t).view.set ↔ ∀ a : Fin 3, win0_10.index t a * S1x512x1024.size a ≤ (o a).val
      ∧ (o a).val < win0_10.index t a * S1x512x1024.size a + S1x512x1024.size a := by
  show o ∈ ((View.whole main_v8).slice (win0_10.rect t)).set ↔ _
  rw [View.set_slice_whole, Rect.mem_set_unit]
  exact Iff.rfl

/-- The four blocks tile the array, so after the region it is `regionOut`. -/
theorem final_v8 (c : Dev nD) : (dats (F := Ideal) m 0 c).arrAt 10 cfg0.N = regionOut m c :=
  (dats m 0 c).arrAt_eq_of_cover 10 (regionOut m c) (fun t _ => flushed_eq m c t) fun o => by
    have h0 : (o 0).val < 4 := (o 0).isLt
    have h1 : (o 1).val < 512 := (o 1).isLt
    have h2 : (o 2).val < 1024 := (o 2).isLt
    have hN : cfg0.N = 4 := N_0
    refine ⟨⟨(o 0).val, by rw [hN]; exact h0⟩, flush0_10 _, ?_⟩
    obtain ⟨-, -, -, -, -, -, g0, g1, g2, -⟩ := idx_facts ⟨(o 0).val, by rw [hN]; exact h0⟩
    have hv : ((⟨(o 0).val, by rw [hN]; exact h0⟩ : Fin cfg0.N) : Nat) = (o 0).val := rfl
    rw [mem_blk]
    intro a
    match a with
    | ⟨0, _⟩ =>
      show win0_10.index _ (0 : Fin 3) * 1 ≤ (o 0).val ∧ (o 0).val < win0_10.index _ (0 : Fin 3) * 1 + 1
      rw [g0, hv]; constructor <;> omega
    | ⟨1, _⟩ =>
      show win0_10.index _ (1 : Fin 3) * 512 ≤ (o 1).val ∧ (o 1).val < win0_10.index _ (1 : Fin 3) * 512 + 512
      rw [g1]; constructor <;> omega
    | ⟨2, _⟩ =>
      show win0_10.index _ (2 : Fin 3) * 1024 ≤ (o 2).val ∧ (o 2).val < win0_10.index _ (2 : Fin 3) * 1024 + 1024
      rw [g2]; constructor <;> omega

/-! ## The two host operations after the region, and the run -/

/-- The program's result: the lanes split into (class, j) and the two swapped. -/
theorem tail_value (c : Dev nD) :
    (Pipeline.afterTail₀ cfgs (dats (F := Ideal) m) 0 (V0 m) [hostOps1] c main_v10 : S4x512x512x2.Idx → EReal)
      = outF (m ((c : Thread nD τ).loc main_arg0)) (timeRows (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v10) = _
  after_results
  funext o
  obtain ⟨b, i, j, cc, rfl⟩ : ∃ (b : Fin 4) (i j : Fin 512) (cc : Fin 2), o = ix4 b i j cc := ⟨o 0, o 1, o 2, o 3, eq_ix4 o⟩
  have hcc := cc.isLt
  have hj := j.isLt
  have h1 : (cc.val * 512 + j.val) % 512 = j.val := by omega
  have h2 : (cc.val * 512 + j.val) / 512 = cc.val := by omega
  refine (tail_apply (Pipeline.withArrays (cfgs 0).spec c (V0 m c) (fun w => (dats (F := Ideal) m 0 c).arrAt w (cfgs 0).N)
    (Proc.tc.devRef main_v8) : S4x512x1024.Idx → EReal) b i j cc ⟨cc.val * 512 + j.val, by omega⟩ rfl).trans ?_
  refine Eq.trans (congrFun ((Pipeline.withArrays_arr spec0 launch0.win.arr_inj c _ _ 10).trans (final_v8 m c)) _) ?_
  unfold regionOut outF lgt
  dsimp only
  simp only [h1, h2]

/-- The run, read: the program's result is the factored form of the logits over the arguments as launched, and the
    arguments end unchanged. -/
theorem run_value : θ_run defs (onTc (τ := τ) (main (F := Ideal))) ⟨m, fun _ => 0, ρ⟩ fun r => ∀ c : Dev nD,
      r.2.mem ((c.tc : Thread nD τ).loc main_v10) = outF (m ((c.tc : Thread nD τ).loc main_arg0)) (timeRows (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v10 (Pipeline.mem_restRefs_of main_v10 (by decide) (by decide))).trans (tail_value m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c)))⟩)
    (run_main m ρ)

end Cert.KernelIdeal.Hand

end
-- ==== Proof.RefValue.lean ====
/-
  The reference program's result, entry by entry, is the direct form of the edge logits.

  Each named stage of the direct form is read off the program's operations at explicit coordinates, bottom-up:
  the row mean, the node embedding, the first layer (its 384-term contraction cut into the three runs of 128 that
  the stacked row is made of), the second layer, the two classifier terms, and the pair sum with its bias.
  The time rows enter only as the array of the gathered rows, read at (batch element, coordinate).
-/
import proofs.«419469_j44573170598305_4_alg».proof.Proof.Gen.ReferenceIdeal.Read
import proofs.«419469_j44573170598305_4_alg».proof.Proof.Spec
import Idealize.ShloMosaic.Lib.Pipeline.Value
import Idealize.ShloMosaic.Lib.ValueIdx
import Idealize.ShloMosaic.PureOps.Ideal.Laws
import Mathlib.Algebra.BigOperators.Fin

noncomputable section

open scoped BigOperators

namespace Cert.ReferenceIdeal.RefValue

open Cert.ReferenceIdeal Cert.ReferenceIdeal.Read Cert.Denoise Idealize.ShloMosaic Idealize.ShloMosaic.ValueIdx

/-! ## A sum over 384 terms, cut into three runs of 128 -/

theorem sum_three_blocks {M : Type*} [AddCommMonoid M] (f : Fin 384 → M) :
    ∑ k, f k = (∑ k : Fin 128, f (blk0 k) + ∑ k : Fin 128, f (blk1 k)) + ∑ k : Fin 128, f (blk2 k) := by
  have h1 := Fin.sum_univ_add (a := 256) (b := 128) (f : Fin (256 + 128) → M)
  have h2 := Fin.sum_univ_add (a := 128) (b := 128) (fun i : Fin (128 + 128) => f (Fin.castAdd 128 (i : Fin 256)))
  refine h1.trans ?_
  refine congrArg₂ (· + ·) (h2.trans ?_) ?_
  · rfl
  · rfl

/-! ## The row mean -/

theorem rowMean_eq (x0 : (⟨S4x512x512, .i32⟩ : BufTy).Contents (Elt Ideal)) (b : Fin 4) (i : Fin 512) :
    val_main_v12 (F := Ideal) x0 (ix2 b i) = rowMean x0 b i := by
  rw [val_main_v12_apply, val_main_v10_apply, val_main_v11_apply, val_main_cst_apply, val_main_cst_1_apply]
  simp only [Ideal.hostDivf_def, Ideal.ofBits_def, Ideal.ofBits_zero_f32, zero_add]
  unfold rowMean
  refine congrArg (fun s => Ideal.div s _) (Finset.sum_congr rfl fun k _ => ?_)
  rw [val_main_v9_apply]
  have e : idx_main_v10 (ix2 b i) k = ix3 b i k := by
    funext a; match a with | ⟨0, _⟩ => rfl | ⟨1, _⟩ => rfl | ⟨2, _⟩ => rfl
  rw [e]
  rfl

/-! ## The node embedding -/

theorem idx_mean_bcast (b : Fin 4) (i : Fin 512) (d : Fin 128) :
    idx_main_v15 (idx_main_v19 (ix3 b i d)) = ix2 b i := by
  funext a; match a with | ⟨0, _⟩ => rfl | ⟨1, _⟩ => rfl

theorem idx_mean_bcast' (b : Fin 4) (i : Fin 512) (d : Fin 128) :
    idx_main_v22 (idx_main_v26 (ix3 b i d)) = ix2 b i := by
  funext a; match a with | ⟨0, _⟩ => rfl | ⟨1, _⟩ => rfl

theorem idx_edge0 (b : Fin 4) (i : Fin 512) (d : Fin 128) :
    idx_main_v16 (idx_main_v17 (idx_main_v18 (idx_main_v20 (ix3 b i d)))) = ix2 (0 : Fin 2) d := by
  funext a
  match a with
  | ⟨0, _⟩ => rfl
  | ⟨1, _⟩ => exact Fin.ext (Nat.mod_eq_of_lt d.isLt)

theorem idx_edge1 (b : Fin 4) (i : Fin 512) (d : Fin 128) :
    idx_main_v23 (idx_main_v24 (idx_main_v25 (idx_main_v27 (ix3 b i d)))) = ix2 (1 : Fin 2) d := by
  funext a
  match a with
  | ⟨0, _⟩ => rfl
  | ⟨1, _⟩ => exact Fin.ext (Nat.mod_eq_of_lt d.isLt)

theorem node_eq (x0 : (⟨S4x512x512, .i32⟩ : BufTy).Contents (Elt Ideal))
    (x4 : (⟨S2x128, .f32⟩ : BufTy).Contents (Elt Ideal)) (b : Fin 4) (i : Fin 512) (d : Fin 128) :
    val_main_v29 (F := Ideal) x0 x4 (ix3 b i d) = nodeD x0 x4 b i d := by
  rw [val_main_v29_apply, val_main_v21_apply, val_main_v28_apply,
    val_main_v19_apply, val_main_v15_apply, val_main_v14_apply, val_main_v13_apply, val_main_cst_2_apply,
    val_main_v20_apply, val_main_v18_apply, val_main_v17_apply, val_main_v16_apply,
    val_main_v26_apply, val_main_v22_apply,
    val_main_v27_apply, val_main_v25_apply, val_main_v24_apply, val_main_v23_apply,
    idx_mean_bcast, idx_mean_bcast', idx_edge0, idx_edge1, rowMean_eq]
  rfl

/-! ## The stacked row, read on each of its three runs -/

theorem cat_blk0 (x0 : (⟨S4x512x512, .i32⟩ : BufTy).Contents (Elt Ideal)) (x1 : (⟨S4, .i32⟩ : BufTy).Contents (Elt Ideal))
    (x2 : (⟨S1001x128, .f32⟩ : BufTy).Contents (Elt Ideal)) (x3 : (⟨S128, .f32⟩ : BufTy).Contents (Elt Ideal))
    (x4 : (⟨S2x128, .f32⟩ : BufTy).Contents (Elt Ideal)) (b : Fin 4) (i : Fin 512) (k : Fin 128) :
    val_main_v32 (F := Ideal) x0 x1 x2 x3 x4 (ix3 b i (blk0 k)) = val_main_v29 (F := Ideal) x0 x4 (ix3 b i k) := by
  unfold val_main_v32
  exact concatenate_apply_piece _ _ _ (ix3 b i (blk0 k)) 0 (by show 0 < 3; omega) S4x512x128 (val_main_v29 (F := Ideal) x0 x4) rfl rfl 0 rfl
    (ix3 b i k)
    (fun c => match c with | ⟨0, _⟩ => fun _ => rfl | ⟨1, _⟩ => fun _ => rfl | ⟨2, _⟩ => fun h => absurd rfl h)
    (by show 0 + k.val = k.val; omega)

theorem cat_blk1 (x0 : (⟨S4x512x512, .i32⟩ : BufTy).Contents (Elt Ideal)) (x1 : (⟨S4, .i32⟩ : BufTy).Contents (Elt Ideal))
    (x2 : (⟨S1001x128, .f32⟩ : BufTy).Contents (Elt Ideal)) (x3 : (⟨S128, .f32⟩ : BufTy).Contents (Elt Ideal))
    (x4 : (⟨S2x128, .f32⟩ : BufTy).Contents (Elt Ideal)) (b : Fin 4) (i : Fin 512) (k : Fin 128) :
    val_main_v32 (F := Ideal) x0 x1 x2 x3 x4 (ix3 b i (blk1 k)) = val_main_v31 (F := Ideal) x3 (ix3 b i k) := by
  unfold val_main_v32
  exact concatenate_apply_piece _ _ _ (ix3 b i (blk1 k)) 1 (by show 1 < 3; omega) S4x512x128 (val_main_v31 (F := Ideal) x3) rfl rfl 128 rfl
    (ix3 b i k)
    (fun c => match c with | ⟨0, _⟩ => fun _ => rfl | ⟨1, _⟩ => fun _ => rfl | ⟨2, _⟩ => fun h => absurd rfl h)
    rfl

theorem cat_blk2 (x0 : (⟨S4x512x512, .i32⟩ : BufTy).Contents (Elt Ideal)) (x1 : (⟨S4, .i32⟩ : BufTy).Contents (Elt Ideal))
    (x2 : (⟨S1001x128, .f32⟩ : BufTy).Contents (Elt Ideal)) (x3 : (⟨S128, .f32⟩ : BufTy).Contents (Elt Ideal))
    (x4 : (⟨S2x128, .f32⟩ : BufTy).Contents (Elt Ideal)) (b : Fin 4) (i : Fin 512) (k : Fin 128) :
    val_main_v32 (F := Ideal) x0 x1 x2 x3 x4 (ix3 b i (blk2 k)) = val_main_v8 (F := Ideal) x1 x2 (ix3 b i k) := by
  unfold val_main_v32
  exact concatenate_apply_piece _ _ _ (ix3 b i (blk2 k)) 2 (by show 2 < 3; omega) S4x512x128 (val_main_v8 (F := Ideal) x1 x2) rfl rfl 256 rfl
    (ix3 b i k)
    (fun c => match c with | ⟨0, _⟩ => fun _ => rfl | ⟨1, _⟩ => fun _ => rfl | ⟨2, _⟩ => fun h => absurd rfl h)
    rfl

/-! ## The first layer -/

theorem idx_nocond (b : Fin 4) (i : Fin 512) (k : Fin 128) :
    idx_main_v30 (idx_main_v31 (ix3 b i k)) = ix1 k := by
  funext a; match a with | ⟨0, _⟩ => rfl

theorem idx_time (b : Fin 4) (i : Fin 512) (k : Fin 128) :
    idx_main_v7 (idx_main_v8 (ix3 b i k)) = ix2 b k := by
  funext a; match a with | ⟨0, _⟩ => rfl | ⟨1, _⟩ => rfl

theorem idx_bias1 (b : Fin 4) (i : Fin 512) (d : Fin 128) :
    idx_main_v34 (idx_main_v35 (ix3 b i d)) = ix1 d := by
  funext a; match a with | ⟨0, _⟩ => rfl

theorem lidx_w1 (b : Fin 4) (i : Fin 512) (d : Fin 128) (k : Fin 384) :
    lidx_main_v33 (ix3 b i d) k = ix3 b i k := by
  funext a; match a with | ⟨0, _⟩ => rfl | ⟨1, _⟩ => rfl | ⟨2, _⟩ => rfl

theorem ridx_w1 (b : Fin 4) (i : Fin 512) (d : Fin 128) (k : Fin 384) :
    ridx_main_v33 (ix3 b i d) k = ix2 k d := by
  funext a; match a with | ⟨0, _⟩ => rfl | ⟨1, _⟩ => rfl

theorem nocond_eq (x3 : (⟨S128, .f32⟩ : BufTy).Contents (Elt Ideal)) (b : Fin 4) (i : Fin 512) (k : Fin 128) :
    val_main_v31 (F := Ideal) x3 (ix3 b i k) = x3 (ix1 k) := by
  rw [val_main_v31_apply, val_main_v30_apply, idx_nocond]

theorem time_eq (x1 : (⟨S4, .i32⟩ : BufTy).Contents (Elt Ideal)) (x2 : (⟨S1001x128, .f32⟩ : BufTy).Contents (Elt Ideal))
    (b : Fin 4) (i : Fin 512) (k : Fin 128) :
    val_main_v8 (F := Ideal) x1 x2 (ix3 b i k) = val_main_v6 (F := Ideal) x1 x2 (ix2 b k) := by
  rw [val_main_v8_apply, val_main_v7_apply, idx_time]

theorem hid_eq (x0 : (⟨S4x512x512, .i32⟩ : BufTy).Contents (Elt Ideal)) (x1 : (⟨S4, .i32⟩ : BufTy).Contents (Elt Ideal))
    (x2 : (⟨S1001x128, .f32⟩ : BufTy).Contents (Elt Ideal)) (x3 : (⟨S128, .f32⟩ : BufTy).Contents (Elt Ideal))
    (x4 : (⟨S2x128, .f32⟩ : BufTy).Contents (Elt Ideal)) (x5 : (⟨S384x128, .f32⟩ : BufTy).Contents (Elt Ideal))
    (x6 : (⟨S128, .f32⟩ : BufTy).Contents (Elt Ideal)) (b : Fin 4) (i : Fin 512) (d : Fin 128) :
    val_main_v37 (F := Ideal) x0 x1 x2 x3 x4 x5 x6 (ix3 b i d)
      = hidD x0 (val_main_v6 (F := Ideal) x1 x2) x3 x4 x5 x6 b i d := by
  rw [val_main_v37_apply, val_main_v36_apply, val_main_v33_apply, sum_three_blocks,
    val_main_call0_v0_apply, val_main_call0_cst_apply, val_main_v35_apply, val_main_v34_apply, idx_bias1]
  simp only [lidx_w1, ridx_w1, cat_blk0, cat_blk1, cat_blk2, node_eq, nocond_eq, time_eq]
  simp only [Ideal.maximumf_def, Ideal.addf_def, Ideal.ofBits_def, Ideal.ofBits_zero_f32]
  rfl

/-! ## The second layer -/

theorem lidx_w2 (b : Fin 4) (i : Fin 512) (e : Fin 128) (k : Fin 128) :
    lidx_main_v38 (ix3 b i e) k = ix3 b i k := by
  funext a; match a with | ⟨0, _⟩ => rfl | ⟨1, _⟩ => rfl | ⟨2, _⟩ => rfl

theorem ridx_w2 (b : Fin 4) (i : Fin 512) (e : Fin 128) (k : Fin 128) :
    ridx_main_v38 (ix3 b i e) k = ix2 k e := by
  funext a; match a with | ⟨0, _⟩ => rfl | ⟨1, _⟩ => rfl

theorem idx_bias2 (b : Fin 4) (i : Fin 512) (e : Fin 128) :
    idx_main_v39 (idx_main_v40 (ix3 b i e)) = ix1 e := by
  funext a; match a with | ⟨0, _⟩ => rfl

theorem fused_eq (x0 : (⟨S4x512x512, .i32⟩ : BufTy).Contents (Elt Ideal)) (x1 : (⟨S4, .i32⟩ : BufTy).Contents (Elt Ideal))
    (x2 : (⟨S1001x128, .f32⟩ : BufTy).Contents (Elt Ideal)) (x3 : (⟨S128, .f32⟩ : BufTy).Contents (Elt Ideal))
    (x4 : (⟨S2x128, .f32⟩ : BufTy).Contents (Elt Ideal)) (x5 : (⟨S384x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (b : Fin 4) (i : Fin 512) (e : Fin 128) :
    val_main_v42 (F := Ideal) x0 x1 x2 x3 x4 x5 x6 x7 x8 (ix3 b i e)
      = fusedD x0 (val_main_v6 (F := Ideal) x1 x2) x3 x4 x5 x6 x7 x8 b i e := by
  rw [val_main_v42_apply, val_main_v41_apply, val_main_v38_apply,
    val_main_call1_v0_apply, val_main_call1_cst_apply, val_main_v40_apply, val_main_v39_apply, idx_bias2]
  simp only [lidx_w2, ridx_w2, hid_eq]
  simp only [Ideal.maximumf_def, Ideal.addf_def, Ideal.ofBits_def, Ideal.ofBits_zero_f32]
  rfl

/-! ## The two classifier terms -/

theorem lidx_wc (b : Fin 4) (i : Fin 512) (c : Fin 2) (k : Fin 128) :
    lidx_main_v44 (ix3 b i c) k = ix3 b i k := by
  funext a; match a with | ⟨0, _⟩ => rfl | ⟨1, _⟩ => rfl | ⟨2, _⟩ => rfl

theorem ridx_wc0 (b : Fin 4) (i : Fin 512) (c : Fin 2) (k : Fin 128) :
    idx_main_v43 (ridx_main_v44 (ix3 b i c) k) = ix2 (half0 k) c := by
  funext a; match a with | ⟨0, _⟩ => rfl | ⟨1, _⟩ => rfl

theorem lidx_wc' (b : Fin 4) (j : Fin 512) (c : Fin 2) (k : Fin 128) :
    lidx_main_v46 (ix3 b j c) k = ix3 b j k := by
  funext a; match a with | ⟨0, _⟩ => rfl | ⟨1, _⟩ => rfl | ⟨2, _⟩ => rfl

theorem ridx_wc1 (b : Fin 4) (j : Fin 512) (c : Fin 2) (k : Fin 128) :
    idx_main_v45 (ridx_main_v46 (ix3 b j c) k) = ix2 (half1 k) c := by
  funext a; match a with | ⟨0, _⟩ => rfl | ⟨1, _⟩ => rfl

theorem left_eq (x0 : (⟨S4x512x512, .i32⟩ : BufTy).Contents (Elt Ideal)) (x1 : (⟨S4, .i32⟩ : BufTy).Contents (Elt Ideal))
    (x2 : (⟨S1001x128, .f32⟩ : BufTy).Contents (Elt Ideal)) (x3 : (⟨S128, .f32⟩ : BufTy).Contents (Elt Ideal))
    (x4 : (⟨S2x128, .f32⟩ : BufTy).Contents (Elt Ideal)) (x5 : (⟨S384x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S256x2, .f32⟩ : BufTy).Contents (Elt Ideal)) (b : Fin 4) (i : Fin 512) (c : Fin 2) :
    val_main_v44 (F := Ideal) x0 x1 x2 x3 x4 x5 x6 x7 x8 x9 (ix3 b i c)
      = leftD x0 (val_main_v6 (F := Ideal) x1 x2) x3 x4 x5 x6 x7 x8 x9 b i c := by
  rw [val_main_v44_apply]
  simp only [val_main_v43_apply, lidx_wc, ridx_wc0, fused_eq]
  rfl

theorem right_eq (x0 : (⟨S4x512x512, .i32⟩ : BufTy).Contents (Elt Ideal)) (x1 : (⟨S4, .i32⟩ : BufTy).Contents (Elt Ideal))
    (x2 : (⟨S1001x128, .f32⟩ : BufTy).Contents (Elt Ideal)) (x3 : (⟨S128, .f32⟩ : BufTy).Contents (Elt Ideal))
    (x4 : (⟨S2x128, .f32⟩ : BufTy).Contents (Elt Ideal)) (x5 : (⟨S384x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S256x2, .f32⟩ : BufTy).Contents (Elt Ideal)) (b : Fin 4) (j : Fin 512) (c : Fin 2) :
    val_main_v46 (F := Ideal) x0 x1 x2 x3 x4 x5 x6 x7 x8 x9 (ix3 b j c)
      = rightD x0 (val_main_v6 (F := Ideal) x1 x2) x3 x4 x5 x6 x7 x8 x9 b j c := by
  rw [val_main_v46_apply]
  simp only [val_main_v45_apply, lidx_wc', ridx_wc1, fused_eq]
  rfl

/-! ## The result -/

theorem idx_left (b : Fin 4) (i j : Fin 512) (c : Fin 2) :
    idx_main_v47 (idx_main_v49 (ix4 b i j c)) = ix3 b i c := by
  funext a; match a with | ⟨0, _⟩ => rfl | ⟨1, _⟩ => rfl | ⟨2, _⟩ => rfl

theorem idx_right (b : Fin 4) (i j : Fin 512) (c : Fin 2) :
    idx_main_v48 (idx_main_v50 (ix4 b i j c)) = ix3 b j c := by
  funext a; match a with | ⟨0, _⟩ => rfl | ⟨1, _⟩ => rfl | ⟨2, _⟩ => rfl

theorem idx_bias3 (b : Fin 4) (i j : Fin 512) (c : Fin 2) :
    idx_main_v52 (idx_main_v53 (ix4 b i j c)) = ix1 c := by
  funext a; match a with | ⟨0, _⟩ => rfl

open Cert.ReferenceIdeal Cert.ReferenceIdeal.Read in
theorem result_eq_direct
    (x0 : (⟨S4x512x512, .i32⟩ : BufTy).Contents (Elt Ideal)) (x1 : (⟨S4, .i32⟩ : BufTy).Contents (Elt Ideal))
    (x2 : (⟨S1001x128, .f32⟩ : BufTy).Contents (Elt Ideal)) (x3 : (⟨S128, .f32⟩ : BufTy).Contents (Elt Ideal))
    (x4 : (⟨S2x128, .f32⟩ : BufTy).Contents (Elt Ideal)) (x5 : (⟨S384x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S256x2, .f32⟩ : BufTy).Contents (Elt Ideal))
    (x10 : (⟨S2, .f32⟩ : BufTy).Contents (Elt Ideal)) :
    val_main_v54 (F := Ideal) x0 x1 x2 x3 x4 x5 x6 x7 x8 x9 x10
      = Cert.Denoise.outD x0 (val_main_v6 (F := Ideal) x1 x2) x3 x4 x5 x6 x7 x8 x9 x10 := by
  funext o
  obtain ⟨b, i, j, c, rfl⟩ : ∃ (b : Fin 4) (i j : Fin 512) (c : Fin 2), o = ix4 b i j c :=
    ⟨o 0, o 1, o 2, o 3, eq_ix4 o⟩
  rw [val_main_v54_apply, val_main_v51_apply, val_main_v49_apply, val_main_v47_apply, val_main_v50_apply,
    val_main_v48_apply, val_main_v53_apply, val_main_v52_apply, idx_left, idx_right, idx_bias3,
    left_eq, right_eq]
  rfl

end Cert.ReferenceIdeal.RefValue

end
-- ==== Proof.Algebra.lean ====
/-
  The factored and the direct form of the edge logits agree when the edge embeddings are real numbers.

  The mean of a row of the adjacency matrix is a real number: a finite sum of integers, read as reals, divided by
  the real 512.  With real edge embeddings the two interpolations `e₀ + p · (e₁ - e₀)` and `(1 - p) · e₀ + p · e₁`
  are then the same real number; this is the one place where finiteness is used, since multiplication does not
  distribute over addition on all of the extended reals.  Everything after the node embedding is a regrouping of
  sums and a swap of factors, which hold on all of the extended reals (addition and multiplication there are
  commutative and associative).
-/
import proofs.«419469_j44573170598305_4_alg».proof.Proof.Spec
import Idealize.ShloMosaic.Lib.IdealHost
import Mathlib.Data.EReal.Operations
import Mathlib.Algebra.BigOperators.Group.Finset.Basic
import Mathlib.Tactic.Ring
import Mathlib.Tactic.NormNum

noncomputable section

open scoped BigOperators

namespace Cert.Denoise

open Idealize.ShloMosaic Idealize.ShloMosaic.ValueIdx

/-- The f32 pattern `0x44000000` is the real number 512. -/
theorem ofBits_512_f32 : Ideal.ofBits .f32 0x44000000#32 = ((512 : ℝ) : EReal) := by
  simp [Ideal.ofBits, Ideal.ieee, -EReal.coe_mul]; norm_num

/-- A finite sum of real numbers, read in the extended reals, is the sum of the terms read there. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable (adj : SAdj.Idx → BitVec 32) (te : STime.Idx → EReal) (nc : SRow.Idx → EReal) (E : SEdge.Idx → EReal)
  (W1 : SW1.Idx → EReal) (b1 : SRow.Idx → EReal) (W2 : SW2.Idx → EReal) (b2 : SRow.Idx → EReal)
  (Wc : SWc.Idx → EReal) (bc : SBc.Idx → EReal)

/-- The row mean is a real number: the sum of the row's integers times `1 / 512`. -/
theorem rowMean_real (b : Fin 4) (i : Fin 512) : ∃ p : ℝ, rowMean adj b i = (p : EReal) := by
  refine ⟨(∑ j : Fin 512, ((adj (ix3 b i j)).toInt : ℝ)) * (1 / 512 : ℝ), ?_⟩
  unfold rowMean
  rw [ofBits_512_f32, Ideal.div_coe (by norm_num : (512 : ℝ) ≠ 0), EReal.coe_mul, coe_finset_sum]

/-- The two interpolations agree on real edge embeddings: both are the real `e₀ + p · (e₁ - e₀)`. -/
theorem node_eq (hE : ∀ x, ∃ r : ℝ, E x = (r : EReal)) (b : Fin 4) (i : Fin 512) (d : Fin 128) :
    nodeF adj E b i d = nodeD adj E b i d := by
  obtain ⟨p, hp⟩ := rowMean_real adj b i
  obtain ⟨e0, h0⟩ := hE (ix2 (0 : Fin 2) d)
  obtain ⟨e1, h1⟩ := hE (ix2 (1 : Fin 2) d)
  unfold nodeF nodeD
  rw [hp, h0, h1, Ideal.ofBits_one_f32, ← EReal.coe_one, ← EReal.coe_sub, ← EReal.coe_sub, ← EReal.coe_mul,
    ← EReal.coe_mul, ← EReal.coe_mul, ← EReal.coe_add, ← EReal.coe_add]
  congr 1
  ring

/-- First layer: equal node embeddings, and one sum of five terms grouped in two ways. -/
theorem hid_eq (hE : ∀ x, ∃ r : ℝ, E x = (r : EReal)) (b : Fin 4) (i : Fin 512) (d : Fin 128) :
    hidF adj te nc E W1 b1 b i d = hidD adj te nc E W1 b1 b i d := by
  unfold hidF hidD restF
  rw [Finset.sum_congr rfl (fun k _ => by rw [node_eq adj E hE b i k] :
    ∀ k ∈ (Finset.univ : Finset (Fin 128)),
      nodeF adj E b i k * W1 (ix2 (blk0 k) d) = nodeD adj E b i k * W1 (ix2 (blk0 k) d))]
  rw [← add_assoc, ← add_assoc]

/-- Second layer: the same expression of equal first layers. -/
theorem fused_eq (hE : ∀ x, ∃ r : ℝ, E x = (r : EReal)) (b : Fin 4) (i : Fin 512) (e : Fin 128) :
    fusedF adj te nc E W1 b1 W2 b2 b i e = fusedD adj te nc E W1 b1 W2 b2 b i e := by
  unfold fusedF fusedD
  rw [Finset.sum_congr rfl (fun d _ => by rw [hid_eq adj te nc E W1 b1 hE b i d] :
    ∀ d ∈ (Finset.univ : Finset (Fin 128)),
      hidF adj te nc E W1 b1 b i d * W2 (ix2 d e) = hidD adj te nc E W1 b1 b i d * W2 (ix2 d e))]

/-- The logit: the bias moves from the first term to the end, and the factors of the second term swap. -/
theorem logit_eq (hE : ∀ x, ∃ r : ℝ, E x = (r : EReal)) (b : Fin 4) (i j : Fin 512) (c : Fin 2) :
    logitF adj te nc E W1 b1 W2 b2 Wc bc b i j c = logitD adj te nc E W1 b1 W2 b2 Wc bc b i j c := by
  unfold logitF logitD leftF rightF leftD rightD
  rw [Finset.sum_congr rfl (fun d _ => by rw [fused_eq adj te nc E W1 b1 W2 b2 hE b i d] :
    ∀ d ∈ (Finset.univ : Finset (Fin 128)),
      fusedF adj te nc E W1 b1 W2 b2 b i d * Wc (ix2 (half0 d) c)
        = fusedD adj te nc E W1 b1 W2 b2 b i d * Wc (ix2 (half0 d) c))]
  rw [Finset.sum_congr rfl (fun d _ => by rw [fused_eq adj te nc E W1 b1 W2 b2 hE b j d, mul_comm] :
    ∀ d ∈ (Finset.univ : Finset (Fin 128)),
      Wc (ix2 (half1 d) c) * fusedF adj te nc E W1 b1 W2 b2 b j d
        = fusedD adj te nc E W1 b1 W2 b2 b j d * Wc (ix2 (half1 d) c))]
  rw [add_right_comm]

end

/-- The factored and the direct form of the result agree when the edge embeddings are real numbers. -/
theorem factored_eq_direct (adj : SAdj.Idx → BitVec 32) (te : STime.Idx → EReal) (nc : SRow.Idx → EReal)
    (E : SEdge.Idx → EReal) (W1 : SW1.Idx → EReal) (b1 : SRow.Idx → EReal) (W2 : SW2.Idx → EReal)
    (b2 : SRow.Idx → EReal) (Wc : SWc.Idx → EReal) (bc : SBc.Idx → EReal)
    (hE : ∀ x, ∃ r : ℝ, E x = (r : EReal)) :
    outF adj te nc E W1 b1 W2 b2 Wc bc = outD adj te nc E W1 b1 W2 b2 Wc bc := by
  funext o
  exact logit_eq adj te nc E W1 b1 W2 b2 Wc bc hE _ _ _ _

end Cert.Denoise

end
-- ==== Proof.Finite.lean ====
/-
  The printed precondition makes the edge embeddings real numbers.

  The precondition is a conjunction, one conjunct per float argument, each saying that every entry `x` of the
  argument has `|x| < +∞`.  The conjunct of the edge embeddings is the third; read at an entry it says
  `max x (-x) < ⊤`, which fails at both infinities and leaves the real numbers.
-/
import proofs.«419469_j44573170598305_4_alg».proof.Pre_finite_inputs
import Idealize.ShloMosaic.Lib.ReduceAll
import Idealize.ShloMosaic.Lib.ValueIdx
import Idealize.ShloMosaic.PureOps.Ideal
import Mathlib.Data.EReal.Basic

noncomputable section

namespace Cert.Denoise

open Idealize.ShloMosaic

/-- The f32 pattern `0x7F800000` is the extended real `⊤`. -/
theorem ofBits_inf_f32 : Ideal.ofBits .f32 0x7F800000#32 = ⊤ := by simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

open Cert.Pre_finite_inputs in
/-- Under the printed precondition every edge embedding is a real number. -/
theorem edge_real [Cert.Pre_finite_inputs.Facts]
    (a0 : IVec Cert.Pre_finite_inputs.S4x512x512 32) (a1 : IVec Cert.Pre_finite_inputs.S4 32)
    (a2 : FVec Ideal Cert.Pre_finite_inputs.S1001x128 .f32) (a3 : FVec Ideal Cert.Pre_finite_inputs.S128 .f32)
    (a4 : FVec Ideal Cert.Pre_finite_inputs.S2x128 .f32) (a5 : FVec Ideal Cert.Pre_finite_inputs.S384x128 .f32)
    (a6 : FVec Ideal Cert.Pre_finite_inputs.S128 .f32) (a7 : FVec Ideal Cert.Pre_finite_inputs.S128x128 .f32)
    (a8 : FVec Ideal Cert.Pre_finite_inputs.S128 .f32) (a9 : FVec Ideal Cert.Pre_finite_inputs.S256x2 .f32)
    (a10 : FVec Ideal Cert.Pre_finite_inputs.S2 .f32)
    (h : Cert.Pre_finite_inputs.fn (F := Ideal) a0 a1 a2 a3 a4 a5 a6 a7 a8 a9 a10 = fun _ => 1#1) :
    ∀ x, ∃ r : ℝ, a4 x = (r : EReal) := by
  intro x
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, Cert.Pre_finite_inputs.fn_part2, andi] at h0
  -- the conjunction, split down to the conjunct of the edge embeddings
  have h12 := (IntOp.andi_eq_one.1 (IntOp.andi_eq_one.1 (IntOp.andi_eq_one.1 (IntOp.andi_eq_one.1
    (IntOp.andi_eq_one.1 (IntOp.andi_eq_one.1 (IntOp.andi_eq_one.1 h0).1).1).1).1).1).1).2
  have hx := Host.reduce_andi_all _ _ _ _ _ h12 x
  exact real_of_abs_lt_inf (a4 x) hx

end Cert.Denoise

end
-- ==== Proof.lean ====
/-
  A fused graph-denoiser kernel against its reference, over the extended reals.

  For each of four batch elements the program takes a 512 × 512 adjacency matrix, forms the mean of each row,
  interpolates two edge embeddings by it, passes the result with a "no condition" row and a time row (row `t[b]` of
  a table, gathered on the host by both programs with the same operations) through two dense layers with a
  rectifier, and returns for every ordered pair of nodes and each of two classes the sum of a term of the first
  node, a term of the second node and a bias.

  The kernel computes one batch element per grid point, writes the two classes side by side along the lanes, and
  the host splits and swaps them afterwards.  It interpolates as `e₀ + p · (e₁ - e₀)`, folds the node-independent
  part of the first layer into one row, and adds the bias to the first node's term; the reference interpolates as
  `(1 - p) · e₀ + p · e₁`, multiplies the concatenated `[node | no condition | time]` row by the whole stacked
  weight, and adds the bias last.  The two agree when the edge embeddings are real numbers — the one place where
  the precondition (every float input finite) is used, for distributing `p` over `e₁ - e₀`; everything else is
  commutativity and associativity of sums and products, which hold on all of the extended reals.

  Spec states both forms; Algebra proves them equal; Finite reads the edge embeddings' finiteness out of the
  precondition; KOps, KPay1, KPay2, KPoint, KBlocks and KTail read the kernel's run as the first form; RefValue
  reads the reference's run as the second.
-/
import proofs.«419469_j44573170598305_4_alg».proof.Defs
import proofs.«419469_j44573170598305_4_alg».proof.Proof.Gen.Kernel
import proofs.«419469_j44573170598305_4_alg».proof.Proof.Gen.Kernel.Skeleton
import proofs.«419469_j44573170598305_4_alg».proof.Proof.Gen.Kernel.Launch
import proofs.«419469_j44573170598305_4_alg».proof.Proof.Gen.Kernel.Points
import proofs.«419469_j44573170598305_4_alg».proof.Proof.Gen.Kernel.Frame
import proofs.«419469_j44573170598305_4_alg».proof.Proof.Gen.KernelIdeal
import proofs.«419469_j44573170598305_4_alg».proof.Proof.Gen.KernelIdeal.Skeleton
import proofs.«419469_j44573170598305_4_alg».proof.Proof.Gen.KernelIdeal.Launch
import proofs.«419469_j44573170598305_4_alg».proof.Proof.Gen.KernelIdeal.Points
import proofs.«419469_j44573170598305_4_alg».proof.Proof.Gen.KernelIdeal.Frame
import proofs.«419469_j44573170598305_4_alg».proof.Proof.Gen.ReferenceIdeal
import proofs.«419469_j44573170598305_4_alg».proof.Proof.Gen.ReferenceIdeal.Run
import proofs.«419469_j44573170598305_4_alg».proof.Proof.Gen.ReferenceIdeal.Read
import proofs.«419469_j44573170598305_4_alg».proof.Proof.Gen.Pre_finite_inputs
import proofs.«419469_j44573170598305_4_alg».proof.Proof.KBlocks
import proofs.«419469_j44573170598305_4_alg».proof.Proof.RefValue
import proofs.«419469_j44573170598305_4_alg».proof.Proof.Algebra
import proofs.«419469_j44573170598305_4_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs gather the time rows with the same host operations. -/
theorem timeRows_eq (t : IVec Cert.ReferenceIdeal.S4 32) (T : FVec Ideal Cert.ReferenceIdeal.S1001x128 .f32) :
    Cert.ReferenceIdeal.Read.val_main_v6 (F := Ideal) t T = Cert.KernelIdeal.Hand.timeRows t T := rfl

/-- The kernel's run with its result in the direct form: the factored form it computes equals the direct one because
    the precondition makes the edge embeddings real. -/
theorem kernel_direct (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v10)
        = Cert.Denoise.outD (m ((c.tc : Thread Cert.KernelIdeal.nD Cert.KernelIdeal.τ).loc Cert.KernelIdeal.main_arg0)) (Cert.KernelIdeal.Hand.timeRows (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono (fun _ h c =>
    ⟨(h c).1.trans (Cert.Denoise.factored_eq_direct _ _ _ _ _ _ _ _ _ _
        (Cert.Denoise.edge_real _ _ _ _ _ _ _ _ _ _ _ (hpre c))), (h c).2⟩)
    (Cert.KernelIdeal.Hand.run_value m ρ)

/-- Both programs, from memories agreeing on the arguments, end with the direct form of the logits. -/
theorem algebraic : Cert.algebraic_KernelIdeal_ReferenceIdeal := by
  intro m ρ m' ρ' hpre hagree
  refine ⟨_, kernel_direct m ρ hpre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v54_eq, Cert.ReferenceIdeal.RefValue.result_eq_direct, timeRows_eq,
    h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
